-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000x64, .f32⟩
  | .hbm, ⟨78, _⟩ => ⟨S1650000x1, .f32⟩
  | .hbm, ⟨79, _⟩ => ⟨S1650000x64, .f32⟩
  | .hbm, ⟨80, _⟩ => ⟨S1650000x64, .f32⟩
  | .hbm, ⟨81, _⟩ => ⟨S_, .f32⟩
  | .hbm, ⟨82, _⟩ => ⟨S50000x64, .f32⟩
  | .hbm, ⟨83, _⟩ => ⟨S1650000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x64, .f32⟩
  | .hbm, ⟨82, _⟩ => ⟨S1650000x1, .f32⟩
  | .hbm, ⟨83, _⟩ => ⟨S1650000x64, .f32⟩
  | .hbm, ⟨84, _⟩ => ⟨S1650000x64, .f32⟩
  | .hbm, ⟨85, _⟩ => ⟨S_, .f32⟩
  | .hbm, ⟨86, _⟩ => ⟨S50000x64, .f32⟩
  | .hbm, ⟨87, _⟩ => ⟨S1650000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S50000x64, .f32⟩
  | .hbm, ⟨106, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.RefRunStaged.lean ====
/-
  The reference's run, read stage by stage.

  The reference's @main is a straight line of 101 host operations. Every weakly fair execution ends with each
  buffer at the fold of the operations' results over the launch contents; read from the last operation back to
  the arguments, the result buffer holds the last stage `val_main_v67` of the six arguments, and no operation
  writes an argument. The fold is read in eleven stretches (the two edge lists; the degrees; their inverse square
  roots; the two gathers of these along the edges and their product, the edge weights; each layer's product
  gathered at the sources, then weighted, scatter-added at the destinations and biased; the rows shifted by their
  maxima; the logarithm of the row sums of the exponentials subtracted), each stretch from ANY contents of the
  buffers it reads, so that no stretch's term is ever spelt out inside the next; what a later stretch still reads
  is carried through the stretches between, none of which writes it.
-/
import proofs.«119653_j4990751998611_1_alg».proof.Proof.RefRun
import proofs.«119653_j4990751998611_1_alg».proof.Proof.RefRead
import Idealize.ShloMosaic.Lib.StableHlo.Run
import Idealize.ShloMosaic.Lib.Pipeline.Frame

noncomputable section

open Idealize.ShloMosaic Idealize.ShloMosaic.TcCoe Idealize.SL.Sem Idealize.ShloMosaic.StableHlo

namespace Cert.ReferenceIdeal.Staged

open Cert.ReferenceIdeal Cert.ReferenceIdeal.Gen Cert.ReferenceIdeal.ValueP Cert.ReferenceIdeal.ReadP

variable {F : FTy → Type} [FloatOps F]

/-! ## The operations in eleven stretches -/

/-- Operations 1 to 7: the two edge lists, each the given row of the edges followed by the self loops. -/
abbrev s01 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- The buffers the stretch writes. -/
abbrev s01_W : List (Ref sig .tc) := [main_v0, main_v1, main_v2, main_v3, main_v4, main_v5, main_v6]
theorem s01_writes : (s01 : List (HloOp τ sig (Elt F))).Forall fun op => op.writes ⊆ (s01_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s01_keep (W : Valuation τ sig (Elt F)) (r : Ref sig .tc) (h : r ∉ s01_W) :
    after (s01 (F := F)) W (Proc.devRef .tc r) = W (Proc.devRef .tc r) :=
  after_of_writes_sub s01 W s01_writes h
/-- Every operation of the stretch determines its result. -/
theorem s01_fresh : (s01 : List (HloOp τ sig (Elt F))).Forall fun op => op.fresh = ∅ := by
  simp only [List.Forall]; repeat' constructor

/-- Operations 8 to 13: the degree of every node, a scatter-add of ones at the destinations. -/
abbrev s02 : List (HloOp τ sig (Elt F)) :=
  [ nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)) ]

/-- The buffers the stretch writes. -/
abbrev s02_W : List (Ref sig .tc) := [main_cst, main_v7, main_cst_0, main_v8, main_v9, main_v10]
theorem s02_writes : (s02 : List (HloOp τ sig (Elt F))).Forall fun op => op.writes ⊆ (s02_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s02_keep (W : Valuation τ sig (Elt F)) (r : Ref sig .tc) (h : r ∉ s02_W) :
    after (s02 (F := F)) W (Proc.devRef .tc r) = W (Proc.devRef .tc r) :=
  after_of_writes_sub s02 W s02_writes h
/-- Every operation of the stretch determines its result. -/
theorem s02_fresh : (s02 : List (HloOp τ sig (Elt F))).Forall fun op => op.fresh = ∅ := by
  simp only [List.Forall]; repeat' constructor

/-- Operations 14 to 24: the inverse square root of the degree, zero where the degree is zero. -/
abbrev s03 : List (HloOp τ sig (Elt F)) :=
  [ nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select ]

/-- The buffers the stretch writes. -/
abbrev s03_W : List (Ref sig .tc) := [main_cst_1, main_v11, main_v12, main_cst_2, main_v13, main_v14, main_v15, main_cst_3, main_call0_v0, main_call0_v1, main_v16]
theorem s03_writes : (s03 : List (HloOp τ sig (Elt F))).Forall fun op => op.writes ⊆ (s03_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s03_keep (W : Valuation τ sig (Elt F)) (r : Ref sig .tc) (h : r ∉ s03_W) :
    after (s03 (F := F)) W (Proc.devRef .tc r) = W (Proc.devRef .tc r) :=
  after_of_writes_sub s03 W s03_writes h
/-- Every operation of the stretch determines its result. -/
theorem s03_fresh : (s03 : List (HloOp τ sig (Elt F))).Forall fun op => op.fresh = ∅ := by
  simp only [List.Forall]; repeat' constructor

/-- Operations 25 to 33: the inverse square roots gathered at the sources (a negative index counted from the end). -/
abbrev s04 : List (HloOp τ sig (Elt F)) :=
  [ nullary main_c (constantI S_ 32 0#32),
    unary main_c main_v17 (broadcastInDim S1650000 ![] bcast_S_S1650000 : (⟨S_, .i32⟩ : BufTy).Contents (Elt F) → (⟨S1650000, .i32⟩ : BufTy).Contents (Elt F)),
    binary main_v3 main_v17 main_v18 (cmpi .slt : (⟨S1650000, .i32⟩ : BufTy).Contents (Elt F) → (⟨S1650000, .i32⟩ : BufTy).Contents (Elt F) → (⟨S1650000, .i1⟩ : BufTy).Contents (Elt F)),
    nullary main_c_4 (constantI S_ 32 50000#32),
    unary main_c_4 main_v19 (broadcastInDim S1650000 ![] bcast_S_S1650000 : (⟨S_, .i32⟩ : BufTy).Contents (Elt F) → (⟨S1650000, .i32⟩ : BufTy).Contents (Elt F)),
    binary main_v3 main_v19 main_v20 (addi : (⟨S1650000, .i32⟩ : BufTy).Contents (Elt F) → (⟨S1650000, .i32⟩ : BufTy).Contents (Elt F) → (⟨S1650000, .i32⟩ : BufTy).Contents (Elt F)),
    ternary main_v18 main_v20 main_v3 main_v21 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v21 main_v22 (broadcastInDim S1650000x1 ![0] bcast_S1650000_S1650000x1_0 : (⟨S1650000, .i32⟩ : BufTy).Contents (Elt F) → (⟨S1650000x1, .i32⟩ : BufTy).Contents (Elt F)),
    binary main_v16 main_v22 main_v23 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)) ]

/-- The buffers the stretch writes. -/
abbrev s04_W : List (Ref sig .tc) := [main_c, main_v17, main_v18, main_c_4, main_v19, main_v20, main_v21, main_v22, main_v23]
theorem s04_writes : (s04 : List (HloOp τ sig (Elt F))).Forall fun op => op.writes ⊆ (s04_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s04_keep (W : Valuation τ sig (Elt F)) (r : Ref sig .tc) (h : r ∉ s04_W) :
    after (s04 (F := F)) W (Proc.devRef .tc r) = W (Proc.devRef .tc r) :=
  after_of_writes_sub s04 W s04_writes h
/-- Every operation of the stretch determines its result. -/
theorem s04_fresh : (s04 : List (HloOp τ sig (Elt F))).Forall fun op => op.fresh = ∅ := by
  simp only [List.Forall]; repeat' constructor

/-- Operations 34 to 43: the inverse square roots gathered at the destinations, and the product of the two gathers: the edge weights. -/
abbrev s05 : List (HloOp τ sig (Elt F)) :=
  [ nullary main_c_5 (constantI S_ 32 0#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (cmpi .slt : (⟨S1650000, .i32⟩ : BufTy).Contents (Elt F) → (⟨S1650000, .i32⟩ : BufTy).Contents (Elt F) → (⟨S1650000, .i1⟩ : BufTy).Contents (Elt F)),
    nullary main_c_6 (constantI S_ 32 50000#32),
    unary main_c_6 main_v26 (broadcastInDim S1650000 ![] bcast_S_S1650000 : (⟨S_, .i32⟩ : BufTy).Contents (Elt F) → (⟨S1650000, .i32⟩ : BufTy).Contents (Elt F)),
    binary main_v6 main_v26 main_v27 (addi : (⟨S1650000, .i32⟩ : BufTy).Contents (Elt F) → (⟨S1650000, .i32⟩ : BufTy).Contents (Elt F) → (⟨S1650000, .i32⟩ : BufTy).Contents (Elt F)),
    ternary main_v25 main_v27 main_v6 main_v28 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v28 main_v29 (broadcastInDim S1650000x1 ![0] bcast_S1650000_S1650000x1_0 : (⟨S1650000, .i32⟩ : BufTy).Contents (Elt F) → (⟨S1650000x1, .i32⟩ : BufTy).Contents (Elt F)),
    binary main_v16 main_v29 main_v30 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v23 main_v30 main_v31 (mulf : (⟨S1650000, .f32⟩ : BufTy).Contents (Elt F) → (⟨S1650000, .f32⟩ : BufTy).Contents (Elt F) → (⟨S1650000, .f32⟩ : BufTy).Contents (Elt F)) ]

/-- The buffers the stretch writes. -/
abbrev s05_W : List (Ref sig .tc) := [main_c_5, main_v24, main_v25, main_c_6, main_v26, main_v27, main_v28, main_v29, main_v30, main_v31]
theorem s05_writes : (s05 : List (HloOp τ sig (Elt F))).Forall fun op => op.writes ⊆ (s05_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s05_keep (W : Valuation τ sig (Elt F)) (r : Ref sig .tc) (h : r ∉ s05_W) :
    after (s05 (F := F)) W (Proc.devRef .tc r) = W (Proc.devRef .tc r) :=
  after_of_writes_sub s05 W s05_writes h
/-- Every operation of the stretch determines its result. -/
theorem s05_fresh : (s05 : List (HloOp τ sig (Elt F))).Forall fun op => op.fresh = ∅ := by
  simp only [List.Forall]; repeat' constructor

/-- Operations 44 to 53: the first product, and its rows gathered at the sources. -/
abbrev s06 : List (HloOp τ sig (Elt F)) :=
  [ binary main_arg0 main_arg2 main_v32 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_7 (constantI S_ 32 0#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (cmpi .slt : (⟨S1650000, .i32⟩ : BufTy).Contents (Elt F) → (⟨S1650000, .i32⟩ : BufTy).Contents (Elt F) → (⟨S1650000, .i1⟩ : BufTy).Contents (Elt F)),
    nullary main_c_8 (constantI S_ 32 50000#32),
    unary main_c_8 main_v35 (broadcastInDim S1650000 ![] bcast_S_S1650000 : (⟨S_, .i32⟩ : BufTy).Contents (Elt F) → (⟨S1650000, .i32⟩ : BufTy).Contents (Elt F)),
    binary main_v3 main_v35 main_v36 (addi : (⟨S1650000, .i32⟩ : BufTy).Contents (Elt F) → (⟨S1650000, .i32⟩ : BufTy).Contents (Elt F) → (⟨S1650000, .i32⟩ : BufTy).Contents (Elt F)),
    ternary main_v34 main_v36 main_v3 main_v37 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v37 main_v38 (broadcastInDim S1650000x1 ![0] bcast_S1650000_S1650000x1_0 : (⟨S1650000, .i32⟩ : BufTy).Contents (Elt F) → (⟨S1650000x1, .i32⟩ : BufTy).Contents (Elt F)),
    binary main_v32 main_v38 main_v39 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)) ]

/-- The buffers the stretch writes. -/
abbrev s06_W : List (Ref sig .tc) := [main_v32, main_c_7, main_v33, main_v34, main_c_8, main_v35, main_v36, main_v37, main_v38, main_v39]
theorem s06_writes : (s06 : List (HloOp τ sig (Elt F))).Forall fun op => op.writes ⊆ (s06_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s06_keep (W : Valuation τ sig (Elt F)) (r : Ref sig .tc) (h : r ∉ s06_W) :
    after (s06 (F := F)) W (Proc.devRef .tc r) = W (Proc.devRef .tc r) :=
  after_of_writes_sub s06 W s06_writes h
/-- Every operation of the stretch determines its result. -/
theorem s06_fresh : (s06 : List (HloOp τ sig (Elt F))).Forall fun op => op.fresh = ∅ := by
  simp only [List.Forall]; repeat' constructor

/-- Operations 54 to 66: the gathered rows scaled by the edge weights and scatter-added at the destinations, the bias, the ramp. -/
abbrev s07 : List (HloOp τ sig (Elt F)) :=
  [ unary main_v31 main_v40 (broadcastInDim S1650000x1 ![0] bcast_S1650000_S1650000x1_0 : (⟨S1650000, .f32⟩ : BufTy).Contents (Elt F) → (⟨S1650000x1, .f32⟩ : BufTy).Contents (Elt F)),
    unary main_v40 main_v41 (broadcastInDim S1650000x128 ![0, 1] bcast_S1650000x1_S1650000x128_0_1 : (⟨S1650000x1, .f32⟩ : BufTy).Contents (Elt F) → (⟨S1650000x128, .f32⟩ : BufTy).Contents (Elt F)),
    binary main_v39 main_v41 main_v42 (mulf : (⟨S1650000x128, .f32⟩ : BufTy).Contents (Elt F) → (⟨S1650000x128, .f32⟩ : BufTy).Contents (Elt F) → (⟨S1650000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S1650000x1 ![0] bcast_S1650000_S1650000x1_0 : (⟨S1650000, .i32⟩ : BufTy).Contents (Elt F) → (⟨S1650000x1, .i32⟩ : BufTy).Contents (Elt F)),
    ternary main_v43 main_v44 main_v42 main_v45 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf ]

/-- The buffers the stretch writes. -/
abbrev s07_W : List (Ref sig .tc) := [main_v40, main_v41, main_v42, main_cst_9, main_v43, main_v44, main_v45, main_v46, main_v47, main_v48, main_call1_cst, main_call1_v0, main_v49]
theorem s07_writes : (s07 : List (HloOp τ sig (Elt F))).Forall fun op => op.writes ⊆ (s07_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s07_keep (W : Valuation τ sig (Elt F)) (r : Ref sig .tc) (h : r ∉ s07_W) :
    after (s07 (F := F)) W (Proc.devRef .tc r) = W (Proc.devRef .tc r) :=
  after_of_writes_sub s07 W s07_writes h
/-- Every operation of the stretch determines its result. -/
theorem s07_fresh : (s07 : List (HloOp τ sig (Elt F))).Forall fun op => op.fresh = ∅ := by
  simp only [List.Forall]; repeat' constructor

/-- Operations 67 to 76: the second product, and its rows gathered at the sources. -/
abbrev s08 : List (HloOp τ sig (Elt F)) :=
  [ binary main_v49 main_arg4 main_v50 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_10 (constantI S_ 32 0#32),
    unary main_c_10 main_v51 (broadcastInDim S1650000 ![] bcast_S_S1650000 : (⟨S_, .i32⟩ : BufTy).Contents (Elt F) → (⟨S1650000, .i32⟩ : BufTy).Contents (Elt F)),
    binary main_v3 main_v51 main_v52 (cmpi .slt : (⟨S1650000, .i32⟩ : BufTy).Contents (Elt F) → (⟨S1650000, .i32⟩ : BufTy).Contents (Elt F) → (⟨S1650000, .i1⟩ : BufTy).Contents (Elt F)),
    nullary main_c_11 (constantI S_ 32 50000#32),
    unary main_c_11 main_v53 (broadcastInDim S1650000 ![] bcast_S_S1650000 : (⟨S_, .i32⟩ : BufTy).Contents (Elt F) → (⟨S1650000, .i32⟩ : BufTy).Contents (Elt F)),
    binary main_v3 main_v53 main_v54 (addi : (⟨S1650000, .i32⟩ : BufTy).Contents (Elt F) → (⟨S1650000, .i32⟩ : BufTy).Contents (Elt F) → (⟨S1650000, .i32⟩ : BufTy).Contents (Elt F)),
    ternary main_v52 main_v54 main_v3 main_v55 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v55 main_v56 (broadcastInDim S1650000x1 ![0] bcast_S1650000_S1650000x1_0 : (⟨S1650000, .i32⟩ : BufTy).Contents (Elt F) → (⟨S1650000x1, .i32⟩ : BufTy).Contents (Elt F)),
    binary main_v50 main_v56 main_v57 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)) ]

/-- The buffers the stretch writes. -/
abbrev s08_W : List (Ref sig .tc) := [main_v50, main_c_10, main_v51, main_v52, main_c_11, main_v53, main_v54, main_v55, main_v56, main_v57]
theorem s08_writes : (s08 : List (HloOp τ sig (Elt F))).Forall fun op => op.writes ⊆ (s08_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s08_keep (W : Valuation τ sig (Elt F)) (r : Ref sig .tc) (h : r ∉ s08_W) :
    after (s08 (F := F)) W (Proc.devRef .tc r) = W (Proc.devRef .tc r) :=
  after_of_writes_sub s08 W s08_writes h
/-- Every operation of the stretch determines its result. -/
theorem s08_fresh : (s08 : List (HloOp τ sig (Elt F))).Forall fun op => op.fresh = ∅ := by
  simp only [List.Forall]; repeat' constructor

/-- Operations 77 to 86: the gathered rows scaled by the edge weights and scatter-added at the destinations, the bias. -/
abbrev s09 : List (HloOp τ sig (Elt F)) :=
  [ unary main_v31 main_v58 (broadcastInDim S1650000x1 ![0] bcast_S1650000_S1650000x1_0 : (⟨S1650000, .f32⟩ : BufTy).Contents (Elt F) → (⟨S1650000x1, .f32⟩ : BufTy).Contents (Elt F)),
    unary main_v58 main_v59 (broadcastInDim S1650000x64 ![0, 1] bcast_S1650000x1_S1650000x64_0_1 : (⟨S1650000x1, .f32⟩ : BufTy).Contents (Elt F) → (⟨S1650000x64, .f32⟩ : BufTy).Contents (Elt F)),
    binary main_v57 main_v59 main_v60 (mulf : (⟨S1650000x64, .f32⟩ : BufTy).Contents (Elt F) → (⟨S1650000x64, .f32⟩ : BufTy).Contents (Elt F) → (⟨S1650000x64, .f32⟩ : BufTy).Contents (Elt F)),
    nullary main_cst_12 (constant S_ .f32 0x00000000#32),
    unary main_cst_12 main_v61 (broadcastInDim S50000x64 ![] bcast_S_S50000x64 : (⟨S_, .f32⟩ : BufTy).Contents (Elt F) → (⟨S50000x64, .f32⟩ : BufTy).Contents (Elt F)),
    unary main_v6 main_v62 (broadcastInDim S1650000x1 ![0] bcast_S1650000_S1650000x1_0 : (⟨S1650000, .i32⟩ : BufTy).Contents (Elt F) → (⟨S1650000x1, .i32⟩ : BufTy).Contents (Elt F)),
    ternary main_v61 main_v62 main_v60 main_v63 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)) ]

/-- The buffers the stretch writes. -/
abbrev s09_W : List (Ref sig .tc) := [main_v58, main_v59, main_v60, main_cst_12, main_v61, main_v62, main_v63, main_v64, main_v65, main_v66]
theorem s09_writes : (s09 : List (HloOp τ sig (Elt F))).Forall fun op => op.writes ⊆ (s09_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s09_keep (W : Valuation τ sig (Elt F)) (r : Ref sig .tc) (h : r ∉ s09_W) :
    after (s09 (F := F)) W (Proc.devRef .tc r) = W (Proc.devRef .tc r) :=
  after_of_writes_sub s09 W s09_writes h
/-- Every operation of the stretch determines its result. -/
theorem s09_fresh : (s09 : List (HloOp τ sig (Elt F))).Forall fun op => op.fresh = ∅ := by
  simp only [List.Forall]; repeat' constructor

/-- Operations 87 to 94: every row shifted by its maximum. -/
abbrev s10 : List (HloOp τ sig (Elt F)) :=
  [ TRef.nullary (TRef.of (T := ⟨S_, .f32⟩) main_call2_cst) (constant S_ .f32 0xFF800000#32),
    TRef.binary (TRef.of (T := ⟨S50000x64, .f32⟩) main_v66) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v66) (TRef.of (T := ⟨S50000x64, .f32⟩) main_call2_v4) (TRef.of (T := ⟨S50000x64, .f32⟩) main_call2_v5) subf ]

/-- The buffers the stretch writes. -/
abbrev s10_W : List (Ref sig .tc) := [main_call2_cst, main_call2_v0, main_call2_cst_0, main_call2_v1, main_call2_v2, main_call2_v3, main_call2_v4, main_call2_v5]
theorem s10_writes : (s10 : List (HloOp τ sig (Elt F))).Forall fun op => op.writes ⊆ (s10_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s10_keep (W : Valuation τ sig (Elt F)) (r : Ref sig .tc) (h : r ∉ s10_W) :
    after (s10 (F := F)) W (Proc.devRef .tc r) = W (Proc.devRef .tc r) :=
  after_of_writes_sub s10 W s10_writes h
/-- Every operation of the stretch determines its result. -/
theorem s10_fresh : (s10 : List (HloOp τ sig (Elt F))).Forall fun op => op.fresh = ∅ := by
  simp only [List.Forall]; repeat' constructor

/-- Operations 95 to 101: the logarithm of the row sums of the exponentials, subtracted from the shifted rows. -/
abbrev s11 : List (HloOp τ sig (Elt F)) :=
  [ TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v67) subf ]

/-- The buffers the stretch writes. -/
abbrev s11_W : List (Ref sig .tc) := [main_call2_v6, main_call2_cst_1, main_call2_v7, main_call2_v8, main_call2_v9, main_call2_v10, main_v67]
theorem s11_writes : (s11 : List (HloOp τ sig (Elt F))).Forall fun op => op.writes ⊆ (s11_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
/-- A buffer the stretch does not write keeps its contents through it. -/
theorem s11_keep (W : Valuation τ sig (Elt F)) (r : Ref sig .tc) (h : r ∉ s11_W) :
    after (s11 (F := F)) W (Proc.devRef .tc r) = W (Proc.devRef .tc r) :=
  after_of_writes_sub s11 W s11_writes h
/-- Every operation of the stretch determines its result. -/
theorem s11_fresh : (s11 : List (HloOp τ sig (Elt F))).Forall fun op => op.fresh = ∅ := by
  simp only [List.Forall]; repeat' constructor

/-! ## What each stretch leaves, from any contents of the buffers it reads -/

set_option maxHeartbeats 1000000 in
/-- The source list: the first row of the edges, then the self loops. -/
theorem s01_v3 (W : Valuation τ sig (Elt F)) (x1 : (⟨S2x1600000, .i32⟩ : BufTy).Contents (Elt F))
    (h1 : W (Proc.devRef .tc main_arg1) = x1) :
    after (s01 (F := F)) W (Proc.devRef .tc main_v3) = val_main_v3 (F := F) x1 := by
  after_results
  rw [h1]
  rfl

set_option maxHeartbeats 1000000 in
/-- The destination list: the second row of the edges, then the self loops. -/
theorem s01_v6 (W : Valuation τ sig (Elt F)) (x1 : (⟨S2x1600000, .i32⟩ : BufTy).Contents (Elt F))
    (h1 : W (Proc.devRef .tc main_arg1) = x1) :
    after (s01 (F := F)) W (Proc.devRef .tc main_v6) = val_main_v6 (F := F) x1 := by
  after_results
  rw [h1]
  rfl

set_option maxHeartbeats 1000000 in
/-- The degrees, from the destination list. -/
theorem s02_v10 (W : Valuation τ sig (Elt F)) (x1 : (⟨S2x1600000, .i32⟩ : BufTy).Contents (Elt F))
    (hd : W (Proc.devRef .tc main_v6) = val_main_v6 (F := F) x1) :
    after (s02 (F := F)) W (Proc.devRef .tc main_v10) = val_main_v10 (F := F) x1 := by
  after_results
  rw [hd]
  rfl

set_option maxHeartbeats 1000000 in
/-- The inverse square roots, from the degrees. -/
theorem s03_v16 (W : Valuation τ sig (Elt F)) (x1 : (⟨S2x1600000, .i32⟩ : BufTy).Contents (Elt F))
    (h10 : W (Proc.devRef .tc main_v10) = val_main_v10 (F := F) x1) :
    after (s03 (F := F)) W (Proc.devRef .tc main_v16) = val_main_v16 (F := F) x1 := by
  after_results
  rw [h10]
  simp only [TRef.ofBuf, TRef.toBuf, cast_eq]
  rfl

set_option maxHeartbeats 1000000 in
/-- The inverse square roots at the sources, from the source list and the inverse square roots. -/
theorem s04_v23 (W : Valuation τ sig (Elt F)) (x1 : (⟨S2x1600000, .i32⟩ : BufTy).Contents (Elt F))
    (hs : W (Proc.devRef .tc main_v3) = val_main_v3 (F := F) x1) (h16 : W (Proc.devRef .tc main_v16) = val_main_v16 (F := F) x1) :
    after (s04 (F := F)) W (Proc.devRef .tc main_v23) = val_main_v23 (F := F) x1 := by
  after_results
  rw [hs, h16]
  rfl

set_option maxHeartbeats 1000000 in
/-- The edge weights, from the destination list, the inverse square roots and their gather at the sources. -/
theorem s05_v31 (W : Valuation τ sig (Elt F)) (x1 : (⟨S2x1600000, .i32⟩ : BufTy).Contents (Elt F))
    (hd : W (Proc.devRef .tc main_v6) = val_main_v6 (F := F) x1) (h16 : W (Proc.devRef .tc main_v16) = val_main_v16 (F := F) x1) (h23 : W (Proc.devRef .tc main_v23) = val_main_v23 (F := F) x1) :
    after (s05 (F := F)) W (Proc.devRef .tc main_v31) = val_main_v31 (F := F) x1 := by
  after_results
  rw [hd, h16, h23]
  rfl

set_option maxHeartbeats 1000000 in
/-- The first product's rows at the sources, from its two arguments and the source list. -/
theorem s06_v39 (W : Valuation τ sig (Elt F)) (x0 : (⟨S50000x256, .f32⟩ : BufTy).Contents (Elt F)) (x1 : (⟨S2x1600000, .i32⟩ : BufTy).Contents (Elt F)) (x2 : (⟨S256x128, .f32⟩ : BufTy).Contents (Elt F))
    (h0 : W (Proc.devRef .tc main_arg0) = x0) (h2 : W (Proc.devRef .tc main_arg2) = x2) (hs : W (Proc.devRef .tc main_v3) = val_main_v3 (F := F) x1) :
    after (s06 (F := F)) W (Proc.devRef .tc main_v39) = val_main_v39 (F := F) x0 x1 x2 := by
  after_results
  rw [h0, h2, hs]
  rfl

set_option maxHeartbeats 1000000 in
/-- The first layer's output, from the gathered rows, the edge weights, the destination list and the bias. -/
theorem s07_v49 (W : Valuation τ sig (Elt F)) (x0 : (⟨S50000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F))
    (h39 : W (Proc.devRef .tc main_v39) = val_main_v39 (F := F) x0 x1 x2) (hn : W (Proc.devRef .tc main_v31) = val_main_v31 (F := F) x1) (hd : W (Proc.devRef .tc main_v6) = val_main_v6 (F := F) x1) (h3 : W (Proc.devRef .tc main_arg3) = x3) :
    after (s07 (F := F)) W (Proc.devRef .tc main_v49) = val_main_v49 (F := F) x0 x1 x2 x3 := by
  after_results
  rw [h39, hn, hd, h3]
  simp only [TRef.ofBuf, TRef.toBuf, cast_eq]
  rfl

set_option maxHeartbeats 1000000 in
/-- The second product's rows at the sources, from the first layer's output, the second weights and the source list. -/
theorem s08_v57 (W : Valuation τ sig (Elt F)) (x0 : (⟨S50000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F))
    (h49 : W (Proc.devRef .tc main_v49) = val_main_v49 (F := F) x0 x1 x2 x3) (h4 : W (Proc.devRef .tc main_arg4) = x4) (hs : W (Proc.devRef .tc main_v3) = val_main_v3 (F := F) x1) :
    after (s08 (F := F)) W (Proc.devRef .tc main_v57) = val_main_v57 (F := F) x0 x1 x2 x3 x4 := by
  after_results
  rw [h49, h4, hs]
  rfl

set_option maxHeartbeats 1000000 in
/-- The second layer's output, from the gathered rows, the edge weights, the destination list and the bias. -/
theorem s09_v66 (W : Valuation τ sig (Elt F)) (x0 : (⟨S50000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h57 : W (Proc.devRef .tc main_v57) = val_main_v57 (F := F) x0 x1 x2 x3 x4) (hn : W (Proc.devRef .tc main_v31) = val_main_v31 (F := F) x1) (hd : W (Proc.devRef .tc main_v6) = val_main_v6 (F := F) x1) (h5 : W (Proc.devRef .tc main_arg5) = x5) :
    after (s09 (F := F)) W (Proc.devRef .tc main_v66) = val_main_v66 (F := F) x0 x1 x2 x3 x4 x5 := by
  after_results
  rw [h57, hn, hd, h5]
  rfl

section RowMax
-- the row maximum is a fold over every index of the array: it is compared by its arguments only, never opened
attribute [local irreducible] Host.reduce

set_option maxHeartbeats 1000000 in
/-- The rows shifted by their maxima, from ANY array `z` in the second layer's output buffer: z − max over the row,
    the maximum taken from −∞ and once more against −∞. -/
theorem s10_shift (W : Valuation τ sig (Elt F)) (z : (⟨S50000x64, .f32⟩ : BufTy).Contents (Elt F)) (h66 : W (Proc.devRef .tc main_v66) = z) :
    after (s10 (F := F)) W (Proc.devRef .tc main_call2_v5)
      = subf z (broadcastInDim S50000x64 ![0, 1] bcast_S50000x1_S50000x64_0_1 (broadcastInDim S50000x1 ![0] bcast_S50000_S50000x1_0
        (maximumf (broadcastInDim S50000 ![] bcast_S_S50000 (constant S_ .f32 0xFF800000#32))
          (Host.reduce FloatOps.maximumf z (constant S_ .f32 0xFF800000#32) reducesTo_S50000x64_S50000_d1 h_S_)))) := by
  after_results_simp
  rw [h66]
  simp only [TRef.ofBuf, TRef.toBuf]
  repeat rw [cast_eq]

/-- The rows shifted by their maxima, from the second layer's output. -/
theorem s10_v5 (W : Valuation τ sig (Elt F)) (x0 : (⟨S50000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h66 : W (Proc.devRef .tc main_v66) = val_main_v66 (F := F) x0 x1 x2 x3 x4 x5) :
    after (s10 (F := F)) W (Proc.devRef .tc main_call2_v5) = val_main_call2_v5 (F := F) x0 x1 x2 x3 x4 x5 :=
  (s10_shift W _ h66).trans (by
    unfold val_main_call2_v5 val_main_call2_v4 val_main_call2_v3 val_main_call2_v2 val_main_call2_v1 val_main_call2_v0 val_main_call2_cst val_main_call2_cst_0
    rfl)

end RowMax

set_option maxHeartbeats 1000000 in
/-- The log-softmax, from the shifted rows. -/
theorem s11_v67 (W : Valuation τ sig (Elt F)) (x0 : (⟨S50000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (hc : W (Proc.devRef .tc main_call2_v5) = val_main_call2_v5 (F := F) x0 x1 x2 x3 x4 x5) :
    after (s11 (F := F)) W (Proc.devRef .tc main_v67) = val_main_v67 (F := F) x0 x1 x2 x3 x4 x5 := by
  after_results_simp
  rw [hc]
  simp only [TRef.ofBuf, TRef.toBuf, cast_eq]
  rfl

/-! ## The whole line -/

/-- The contents after the first stretch, from contents `V`; and so on, one stretch at a time. -/
abbrev at01 (V : Valuation τ sig (Elt F)) : Valuation τ sig (Elt F) := after s01 V
abbrev at02 (V : Valuation τ sig (Elt F)) : Valuation τ sig (Elt F) := after s02 (at01 V)
abbrev at03 (V : Valuation τ sig (Elt F)) : Valuation τ sig (Elt F) := after s03 (at02 V)
abbrev at04 (V : Valuation τ sig (Elt F)) : Valuation τ sig (Elt F) := after s04 (at03 V)
abbrev at05 (V : Valuation τ sig (Elt F)) : Valuation τ sig (Elt F) := after s05 (at04 V)
abbrev at06 (V : Valuation τ sig (Elt F)) : Valuation τ sig (Elt F) := after s06 (at05 V)
abbrev at07 (V : Valuation τ sig (Elt F)) : Valuation τ sig (Elt F) := after s07 (at06 V)
abbrev at08 (V : Valuation τ sig (Elt F)) : Valuation τ sig (Elt F) := after s08 (at07 V)
abbrev at09 (V : Valuation τ sig (Elt F)) : Valuation τ sig (Elt F) := after s09 (at08 V)
abbrev at10 (V : Valuation τ sig (Elt F)) : Valuation τ sig (Elt F) := after s10 (at09 V)
abbrev at11 (V : Valuation τ sig (Elt F)) : Valuation τ sig (Elt F) := after s11 (at10 V)

set_option maxRecDepth 8192 in
/-- The 101 operations are the eleven stretches in a row. -/
theorem ops_eq : (ops : List (HloOp τ sig (Elt F))) = s01 ++ (s02 ++ (s03 ++ (s04 ++ (s05 ++ (s06 ++ (s07 ++ (s08 ++ (s09 ++ (s10 ++ (s11)))))))))) := rfl

/-- The fold over the line is the folds over the stretches, one after the other. -/
theorem after_ops (V : Valuation τ sig (Elt F)) : after (ops (F := F)) V = at11 V := by
  rw [ops_eq, after_append, after_append, after_append, after_append, after_append, after_append, after_append, after_append, after_append, after_append]

/-- Every buffer the line writes. -/
abbrev ops_W : List (Ref sig .tc) := s01_W ++ (s02_W ++ (s03_W ++ (s04_W ++ (s05_W ++ (s06_W ++ (s07_W ++ (s08_W ++ (s09_W ++ (s10_W ++ (s11_W))))))))))

/-- A buffer the line does not write keeps its contents through it. -/
theorem ops_keep (V : Valuation τ sig (Elt F)) (r : Ref sig .tc) (h : r ∉ ops_W) :
    after (ops (F := F)) V (Proc.devRef .tc r) = V (Proc.devRef .tc r) := by
  simp only [ops_W, List.mem_append, not_or] at h
  obtain ⟨h1, h2, h3, h4, h5, h6, h7, h8, h9, h10, h11⟩ := h
  exact (congrFun (after_ops V) _).trans <| (s11_keep (at10 V) r h11).trans <| (s10_keep (at09 V) r h10).trans <|
    (s09_keep (at08 V) r h9).trans <| (s08_keep (at07 V) r h8).trans <| (s07_keep (at06 V) r h7).trans <|
    (s06_keep (at05 V) r h6).trans <| (s05_keep (at04 V) r h5).trans <| (s04_keep (at03 V) r h4).trans <|
    (s03_keep (at02 V) r h3).trans <| (s02_keep (at01 V) r h2).trans (s01_keep V r h1)

/-- Every operation of the line determines its result. -/
theorem ops_fresh : ∀ op ∈ (ops : List (HloOp τ sig (Elt F))), op.fresh = ∅ := by
  intro op hop
  rw [ops_eq] at hop
  simp only [List.mem_append] at hop
  rcases hop with h | h | h | h | h | h | h | h | h | h | h
  · exact List.forall_iff_forall_mem.mp s01_fresh op h
  · exact List.forall_iff_forall_mem.mp s02_fresh op h
  · exact List.forall_iff_forall_mem.mp s03_fresh op h
  · exact List.forall_iff_forall_mem.mp s04_fresh op h
  · exact List.forall_iff_forall_mem.mp s05_fresh op h
  · exact List.forall_iff_forall_mem.mp s06_fresh op h
  · exact List.forall_iff_forall_mem.mp s07_fresh op h
  · exact List.forall_iff_forall_mem.mp s08_fresh op h
  · exact List.forall_iff_forall_mem.mp s09_fresh op h
  · exact List.forall_iff_forall_mem.mp s10_fresh op h
  · exact List.forall_iff_forall_mem.mp s11_fresh op h

/-- THE RESULT: after the line the result buffer holds the last stage of the six arguments as the line found them.
    Each stretch's result is read from the contents the stretches before it leave; what a later stretch still reads
    (the two lists, the inverse square roots, the edge weights, an argument not yet used) is carried through the
    stretches between, none of which writes it. -/
theorem result_v67 (V : Valuation τ sig (Elt F)) :
    after (ops (F := F)) V (Proc.devRef .tc main_v67)
      = val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  -- the edge lists
  have E1_3 : at01 V (Proc.devRef .tc main_v3) = val_main_v3 (F := F) (V (Proc.devRef .tc main_arg1)) := s01_v3 V _ rfl
  have E1_6 : at01 V (Proc.devRef .tc main_v6) = val_main_v6 (F := F) (V (Proc.devRef .tc main_arg1)) := s01_v6 V _ rfl
  -- the degrees
  have E2_3 : at02 V (Proc.devRef .tc main_v3) = val_main_v3 (F := F) (V (Proc.devRef .tc main_arg1)) := (s02_keep _ main_v3 (by decide)).trans E1_3
  have E2_6 : at02 V (Proc.devRef .tc main_v6) = val_main_v6 (F := F) (V (Proc.devRef .tc main_arg1)) := (s02_keep _ main_v6 (by decide)).trans E1_6
  have E2_10 : at02 V (Proc.devRef .tc main_v10) = val_main_v10 (F := F) (V (Proc.devRef .tc main_arg1)) := s02_v10 _ _ E1_6
  -- their inverse square roots
  have E3_3 : at03 V (Proc.devRef .tc main_v3) = val_main_v3 (F := F) (V (Proc.devRef .tc main_arg1)) := (s03_keep _ main_v3 (by decide)).trans E2_3
  have E3_6 : at03 V (Proc.devRef .tc main_v6) = val_main_v6 (F := F) (V (Proc.devRef .tc main_arg1)) := (s03_keep _ main_v6 (by decide)).trans E2_6
  have E3_16 : at03 V (Proc.devRef .tc main_v16) = val_main_v16 (F := F) (V (Proc.devRef .tc main_arg1)) := s03_v16 _ _ E2_10
  -- gathered at the sources
  have E4_3 : at04 V (Proc.devRef .tc main_v3) = val_main_v3 (F := F) (V (Proc.devRef .tc main_arg1)) := (s04_keep _ main_v3 (by decide)).trans E3_3
  have E4_6 : at04 V (Proc.devRef .tc main_v6) = val_main_v6 (F := F) (V (Proc.devRef .tc main_arg1)) := (s04_keep _ main_v6 (by decide)).trans E3_6
  have E4_16 : at04 V (Proc.devRef .tc main_v16) = val_main_v16 (F := F) (V (Proc.devRef .tc main_arg1)) := (s04_keep _ main_v16 (by decide)).trans E3_16
  have E4_23 : at04 V (Proc.devRef .tc main_v23) = val_main_v23 (F := F) (V (Proc.devRef .tc main_arg1)) := s04_v23 _ _ E3_3 E3_16
  -- the edge weights
  have E5_3 : at05 V (Proc.devRef .tc main_v3) = val_main_v3 (F := F) (V (Proc.devRef .tc main_arg1)) := (s05_keep _ main_v3 (by decide)).trans E4_3
  have E5_6 : at05 V (Proc.devRef .tc main_v6) = val_main_v6 (F := F) (V (Proc.devRef .tc main_arg1)) := (s05_keep _ main_v6 (by decide)).trans E4_6
  have E5_31 : at05 V (Proc.devRef .tc main_v31) = val_main_v31 (F := F) (V (Proc.devRef .tc main_arg1)) := s05_v31 _ _ E4_6 E4_16 E4_23
  -- an argument through the first five stretches
  have K5 : ∀ r : Ref sig .tc, r ∉ s01_W → r ∉ s02_W → r ∉ s03_W → r ∉ s04_W → r ∉ s05_W →
      at05 V (Proc.devRef .tc r) = V (Proc.devRef .tc r) := fun r h1 h2 h3 h4 h5 =>
    (s05_keep _ r h5).trans <| (s04_keep _ r h4).trans <| (s03_keep _ r h3).trans <| (s02_keep _ r h2).trans (s01_keep V r h1)
  -- the first layer
  have E6_3 : at06 V (Proc.devRef .tc main_v3) = val_main_v3 (F := F) (V (Proc.devRef .tc main_arg1)) := (s06_keep _ main_v3 (by decide)).trans E5_3
  have E6_6 : at06 V (Proc.devRef .tc main_v6) = val_main_v6 (F := F) (V (Proc.devRef .tc main_arg1)) := (s06_keep _ main_v6 (by decide)).trans E5_6
  have E6_31 : at06 V (Proc.devRef .tc main_v31) = val_main_v31 (F := F) (V (Proc.devRef .tc main_arg1)) := (s06_keep _ main_v31 (by decide)).trans E5_31
  have E6_39 : at06 V (Proc.devRef .tc main_v39) = val_main_v39 (F := F) (V (Proc.devRef .tc main_arg0)) (V (Proc.devRef .tc main_arg1)) (V (Proc.devRef .tc main_arg2)) :=
    s06_v39 _ _ _ _ (K5 main_arg0 (by decide) (by decide) (by decide) (by decide) (by decide))
      (K5 main_arg2 (by decide) (by decide) (by decide) (by decide) (by decide)) E5_3
  have E6_a3 : at06 V (Proc.devRef .tc main_arg3) = V (Proc.devRef .tc main_arg3) := (s06_keep _ main_arg3 (by decide)).trans (K5 main_arg3 (by decide) (by decide) (by decide) (by decide) (by decide))
  have E6_a4 : at06 V (Proc.devRef .tc main_arg4) = V (Proc.devRef .tc main_arg4) := (s06_keep _ main_arg4 (by decide)).trans (K5 main_arg4 (by decide) (by decide) (by decide) (by decide) (by decide))
  have E6_a5 : at06 V (Proc.devRef .tc main_arg5) = V (Proc.devRef .tc main_arg5) := (s06_keep _ main_arg5 (by decide)).trans (K5 main_arg5 (by decide) (by decide) (by decide) (by decide) (by decide))
  have E7_3 : at07 V (Proc.devRef .tc main_v3) = val_main_v3 (F := F) (V (Proc.devRef .tc main_arg1)) := (s07_keep _ main_v3 (by decide)).trans E6_3
  have E7_6 : at07 V (Proc.devRef .tc main_v6) = val_main_v6 (F := F) (V (Proc.devRef .tc main_arg1)) := (s07_keep _ main_v6 (by decide)).trans E6_6
  have E7_31 : at07 V (Proc.devRef .tc main_v31) = val_main_v31 (F := F) (V (Proc.devRef .tc main_arg1)) := (s07_keep _ main_v31 (by decide)).trans E6_31
  have E7_49 : at07 V (Proc.devRef .tc main_v49) = val_main_v49 (F := F) (V (Proc.devRef .tc main_arg0)) (V (Proc.devRef .tc main_arg1)) (V (Proc.devRef .tc main_arg2)) (V (Proc.devRef .tc main_arg3)) := s07_v49 _ _ _ _ _ E6_39 E6_31 E6_6 E6_a3
  have E7_a4 : at07 V (Proc.devRef .tc main_arg4) = V (Proc.devRef .tc main_arg4) := (s07_keep _ main_arg4 (by decide)).trans E6_a4
  have E7_a5 : at07 V (Proc.devRef .tc main_arg5) = V (Proc.devRef .tc main_arg5) := (s07_keep _ main_arg5 (by decide)).trans E6_a5
  -- the second layer
  have E8_6 : at08 V (Proc.devRef .tc main_v6) = val_main_v6 (F := F) (V (Proc.devRef .tc main_arg1)) := (s08_keep _ main_v6 (by decide)).trans E7_6
  have E8_31 : at08 V (Proc.devRef .tc main_v31) = val_main_v31 (F := F) (V (Proc.devRef .tc main_arg1)) := (s08_keep _ main_v31 (by decide)).trans E7_31
  have E8_57 : at08 V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) := s08_v57 _ _ _ _ _ _ E7_49 E7_a4 E7_3
  have E8_a5 : at08 V (Proc.devRef .tc main_arg5) = V (Proc.devRef .tc main_arg5) := (s08_keep _ main_arg5 (by decide)).trans E7_a5
  have E9_66 : at09 V (Proc.devRef .tc main_v66) = val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := s09_v66 _ _ _ _ _ _ _ E8_57 E8_31 E8_6 E8_a5
  -- the log-softmax
  have E10_5 : at10 V (Proc.devRef .tc main_call2_v5) = val_main_call2_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := s10_v5 _ _ _ _ _ _ _ E9_66
  exact (congrFun (after_ops V) _).trans (s11_v67 _ _ _ _ _ _ _ E10_5)

/-- Every weakly fair execution of the reference terminates with the result buffer at the last stage of the six
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
          = val_main_v67 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (result_v67 (launchContents m c)),
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide))⟩)
    (run_seq scopedRefs_eq scopedSems_eq defs main (fun _ => ops) main_eq (fun _ => ops_sub) m ρ (fun _ => ops_fresh))

end Cert.ReferenceIdeal.Staged

end
-- ==== Proof.Spec.lean ====
/-
  The four dense stages of a two-layer graph convolution, each as ONE whole-array function over the extended reals.

  The network is  out = logsoftmax_rows( Â · relu( Â · (x·W₁) + b₁ ) · W₂ + b₂ )  with Â the normalised adjacency
  (gather along the source of an edge, scale, scatter-add at its destination). The sparse part Â· is the same
  host computation in both programs; what differs is how the dense stages are carried out: a matrix product
  taken 5000 rows at a time, a bias and a ramp taken 5000 rows at a time, and a row-wise log-softmax taken 5000
  rows at a time. Each of the four is stated here for the whole 50000-row array, entry by entry:

    * `xw1`, `xw2`   entry (r, j) of a product is  ∑ₖ left(r, k) · right(k, j);
    * `biasRamp`      entry (r, j) is  max(a(r, j) + b(0, j), 0);
    * `addBias64`, `rowMax`, `logSoftmaxRows`
                      z(r, j) = a(r, j) + b(0, j),  M(r) = max over the row from −∞,
                      out(r, j) = (z(r, j) − M(r)) − log ∑ₖ exp(z(r, k) − M(r)).

  Sums and maxima over a row do not depend on how rows are grouped into blocks, which is the whole reason the
  blocked computation and the whole-array one agree; no law used needs the entries to be finite.
-/
import Idealize.ShloMosaic.PureOps.Ideal
import Idealize.ShloMosaic.Lib.ValueIdx

noncomputable section

open Idealize.ShloMosaic
open scoped BigOperators

namespace Cert.GcnSpec

/-! ## The literal shapes -/

abbrev N50000x256 : Shape := ⟨2, ![50000, 256]⟩
abbrev N256x128 : Shape := ⟨2, ![256, 128]⟩
abbrev N50000x128 : Shape := ⟨2, ![50000, 128]⟩
abbrev N128x64 : Shape := ⟨2, ![128, 64]⟩
abbrev N50000x64 : Shape := ⟨2, ![50000, 64]⟩
abbrev N1x128 : Shape := ⟨2, ![1, 128]⟩
abbrev N1x64 : Shape := ⟨2, ![1, 64]⟩

/-! ## The first product, [50000, 256] · [256, 128] -/

/-- For the output entry `i` = (r, j): entry (r, k) of the left factor. -/
abbrev leftAt1 (i : N50000x128.Idx) (k : Fin 256) : N50000x256.Idx := fun a => match a with
  | ⟨0, _⟩ => ⟨(i 0).val, (i 0).isLt⟩
  | ⟨1, _⟩ => ⟨k.val, k.isLt⟩
/-- For the output entry `i` = (r, j): entry (k, j) of the right factor. -/
abbrev rightAt1 (i : N50000x128.Idx) (k : Fin 256) : N256x128.Idx := fun a => match a with
  | ⟨0, _⟩ => ⟨k.val, k.isLt⟩
  | ⟨1, _⟩ => ⟨(i 1).val, (i 1).isLt⟩
/-- x · W₁, entry by entry. -/
def xw1 (x : FVec Ideal N50000x256 .f32) (w : FVec Ideal N256x128 .f32) : FVec Ideal N50000x128 .f32 :=
  fun i => ∑ k : Fin 256, x (leftAt1 i k) * w (rightAt1 i k)

/-! ## The second product, [50000, 128] · [128, 64] -/

/-- For the output entry `i` = (r, j): entry (r, k) of the left factor. -/
abbrev leftAt2 (i : N50000x64.Idx) (k : Fin 128) : N50000x128.Idx := fun a => match a with
  | ⟨0, _⟩ => ⟨(i 0).val, (i 0).isLt⟩
  | ⟨1, _⟩ => ⟨k.val, k.isLt⟩
/-- For the output entry `i` = (r, j): entry (k, j) of the right factor. -/
abbrev rightAt2 (i : N50000x64.Idx) (k : Fin 128) : N128x64.Idx := fun a => match a with
  | ⟨0, _⟩ => ⟨k.val, k.isLt⟩
  | ⟨1, _⟩ => ⟨(i 1).val, (i 1).isLt⟩
/-- h · W₂, entry by entry. -/
def xw2 (x : FVec Ideal N50000x128 .f32) (w : FVec Ideal N128x64 .f32) : FVec Ideal N50000x64 .f32 :=
  fun i => ∑ k : Fin 128, x (leftAt2 i k) * w (rightAt2 i k)

/-! ## Bias and ramp on [50000, 128] -/

/-- The bias row's entry (0, j) that entry (r, j) takes. -/
abbrev biasAt128 (i : N50000x128.Idx) : N1x128.Idx := fun a => match a with
  | ⟨0, _⟩ => ⟨0, Nat.one_pos⟩
  | ⟨1, _⟩ => ⟨(i 1).val, (i 1).isLt⟩
/-- max(a + b, 0) with the one bias row `b` added to every row of `a`. -/
def biasRamp (a : FVec Ideal N50000x128 .f32) (b : FVec Ideal N1x128 .f32) : FVec Ideal N50000x128 .f32 :=
  fun i => FloatOps.maximumf (FloatOps.addf (a i) (b (biasAt128 i))) (FloatOps.ofBits .f32 0x00000000#32)

/-! ## Bias and row-wise log-softmax on [50000, 64] -/

/-- The bias row's entry (0, j) that entry (r, j) takes. -/
abbrev biasAt64 (i : N50000x64.Idx) : N1x64.Idx := fun a => match a with
  | ⟨0, _⟩ => ⟨0, Nat.one_pos⟩
  | ⟨1, _⟩ => ⟨(i 1).val, (i 1).isLt⟩
/-- a + b with the one bias row `b` added to every row of `a`. -/
def addBias64 (a : FVec Ideal N50000x64 .f32) (b : FVec Ideal N1x64 .f32) : FVec Ideal N50000x64 .f32 :=
  fun i => FloatOps.addf (a i) (b (biasAt64 i))
/-- Entry (r, k). -/
abbrev rowAt64 (r : Fin 50000) (k : Fin 64) : N50000x64.Idx := fun a => match a with
  | ⟨0, _⟩ => ⟨r.val, r.isLt⟩
  | ⟨1, _⟩ => ⟨k.val, k.isLt⟩
/-- The row index of an entry, as a number below 50000. -/
abbrev rowOf64 (i : N50000x64.Idx) : Fin 50000 := ⟨(i 0).val, (i 0).isLt⟩
/-- The largest entry of row `r`, starting from −∞ (the word `0xFF800000`). -/
def rowMax (z : FVec Ideal N50000x64 .f32) (r : Fin 50000) : Ideal .f32 :=
  (Finset.univ : Finset (Fin 64)).fold max (Ideal.ofBits .f32 0xFF800000#32) (fun k => z (rowAt64 r k))
/-- Row-wise log-softmax, shifted by the row's maximum: (z − M) − log ∑ exp(z − M). -/
def logSoftmaxRows (z : FVec Ideal N50000x64 .f32) : FVec Ideal N50000x64 .f32 :=
  fun i => (z i - rowMax z (rowOf64 i)) - Ideal.log (∑ k : Fin 64, Ideal.exp (z (rowAt64 (rowOf64 i) k) - rowMax z (rowOf64 i)))

end Cert.GcnSpec

end
-- ==== Proof.RefStages.lean ====
/-
  The reference's four dense stages are the whole-array functions of the specification.

  The reference computes each dense stage with one host operation or a short chain of them on the whole
  50000-row arrays: a `dot_general` (at the extended reals the plain sum over the contracted axis), a bias
  broadcast along rows followed by a maximum with the zero splat, and jax's `log_softmax`, which takes the row
  maximum from −∞, takes the maximum of that with −∞ once more (no change: −∞ is the least extended real),
  subtracts it, and subtracts the logarithm of the row sum of exponentials taken from 0. Read entry by entry
  these are `xw1`, `biasRamp`, `xw2` and `logSoftmaxRows ∘ addBias64`.
-/
import proofs.«119653_j4990751998611_1_alg».proof.Proof.RefRead
import proofs.«119653_j4990751998611_1_alg».proof.Proof.Spec
import Idealize.ShloMosaic.PureOps.Ideal.Laws
import Idealize.ShloMosaic.Lib.ValueIdx

noncomputable section

open Idealize.ShloMosaic Idealize.ShloMosaic.TcCoe Idealize.SL.Sem
open Idealize.ShloMosaic.ValueIdx
open scoped BigOperators

namespace Cert.ReferenceIdeal.Stages

open Cert.ReferenceIdeal Cert.ReferenceIdeal.Gen Cert.ReferenceIdeal.ReadP Cert.GcnSpec

/-! ## The reading's index functions are the specification's -/

/-- Entry (r, k) of the first product's left factor. -/
theorem lidx32_eq (i : S50000x128.Idx) (k : Fin 256) : lidx_main_v32 i k = leftAt1 i k :=
  funext fun a => Fin.ext (by match a with | ⟨0, _⟩ => rfl | ⟨1, _⟩ => rfl)
/-- Entry (k, j) of the first product's right factor. -/
theorem ridx32_eq (i : S50000x128.Idx) (k : Fin 256) : ridx_main_v32 i k = rightAt1 i k :=
  funext fun a => Fin.ext (by match a with | ⟨0, _⟩ => rfl | ⟨1, _⟩ => rfl)
/-- Entry (r, k) of the second product's left factor. -/
theorem lidx50_eq (i : S50000x64.Idx) (k : Fin 128) : lidx_main_v50 i k = leftAt2 i k :=
  funext fun a => Fin.ext (by match a with | ⟨0, _⟩ => rfl | ⟨1, _⟩ => rfl)
/-- Entry (k, j) of the second product's right factor. -/
theorem ridx50_eq (i : S50000x64.Idx) (k : Fin 128) : ridx_main_v50 i k = rightAt2 i k :=
  funext fun a => Fin.ext (by match a with | ⟨0, _⟩ => rfl | ⟨1, _⟩ => rfl)
/-- The bias row's entry (0, j) that entry (r, j) of a [50000, 128] array takes. -/
theorem idx47_eq (i : S50000x128.Idx) : idx_main_v47 i = biasAt128 i :=
  funext fun a => Fin.ext (by match a with | ⟨0, _⟩ => rfl | ⟨1, _⟩ => rfl)
/-- The bias row's entry (0, j) that entry (r, j) of a [50000, 64] array takes. -/
theorem idx65_eq (i : S50000x64.Idx) : idx_main_v65 i = biasAt64 i :=
  funext fun a => Fin.ext (by match a with | ⟨0, _⟩ => rfl | ⟨1, _⟩ => rfl)

/-- The first `dot_general` is the product `xw1`. -/
theorem product1 (x0 : (⟨S50000x256, .f32⟩ : BufTy).Contents (Elt Ideal)) (x2 : (⟨S256x128, .f32⟩ : BufTy).Contents (Elt Ideal)) :
    val_main_v32 (F := Ideal) x0 x2 = xw1 x0 x2 := by
  funext i
  refine (val_main_v32_apply x0 x2 i).trans ?_
  refine Finset.sum_congr rfl fun k _ => ?_
  rw [lidx32_eq, ridx32_eq]

/-- Bias, then the ramp: `biasRamp` of the aggregated array and the bias as one row. -/
theorem ramp (x0 : (⟨S50000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) :
    val_main_v49 (F := Ideal) x0 x1 x2 x3 = biasRamp (val_main_v45 (F := Ideal) x0 x1 x2) (val_main_v46 (F := Ideal) x3) := by
  funext i
  rw [val_main_v49_apply, val_main_v48_apply, val_main_v47_apply, val_main_call1_v0_apply, val_main_call1_cst_apply, idx47_eq]
  rfl

/-- The second `dot_general` is the product `xw2`. -/
theorem product2 (x0 : (⟨S50000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) :
    val_main_v50 (F := Ideal) x0 x1 x2 x3 x4 = xw2 (val_main_v49 (F := Ideal) x0 x1 x2 x3) x4 := by
  funext i
  refine (val_main_v50_apply x0 x1 x2 x3 x4 i).trans ?_
  refine Finset.sum_congr rfl fun k _ => ?_
  rw [lidx50_eq, ridx50_eq]

/-! ## The row maximum -/

/-- −∞ is the least extended real: the maximum with it changes nothing. -/
theorem max_negInf (y : Ideal .f32) : max (Ideal.ofBits .f32 0xFF800000#32) y = y := by
  simp [Ideal.ofBits, Ideal.ieee]

/-- Row `r` with column `k` put back is entry (r, k). -/
theorem lift_row (h : S50000x64.Reduces [1] S50000) (r : Fin 50000) (k : Fin (S50000x64.size 1)) :
    h.lift (ix1 r) k = rowAt64 r ⟨k.val, k.isLt⟩ := by
  funext c; apply Fin.ext
  fin_cases c <;> rfl

/-- From −∞, the fold of the maximum along row `r` is `rowMax` of that row: the maximum is commutative and
    associative, so the fold over the entries that drop to `r` is the fold over the row's 64 columns. -/
theorem reduce_max_row (z : FVec Ideal S50000x64 .f32) (init : S_.Idx → Ideal .f32)
    (hinit : ∀ j, init j = Ideal.ofBits .f32 0xFF800000#32)
    (h' : S50000x64.ReducesTo [1] S50000) (hu : 0 < S_.numel) (r : Fin 50000) :
    Host.reduce FloatOps.maximumf z init h' hu (ix1 r) = rowMax z r := by
  have h : S50000x64.Reduces [1] S50000 := by decide
  rw [Host.reduce_eq_fold_single FloatOps.maximumf z init h' h hu, hinit]
  have hf : (z ∘ h.lift (ix1 r)) = fun k : Fin 64 => z (rowAt64 r k) := funext fun k => congrArg z (lift_row h r k)
  exact congrArg (fun f => Finset.fold max (Ideal.ofBits .f32 0xFF800000#32) f (Finset.univ : Finset (Fin 64))) hf

/-! ## Bias, then the row-wise log-softmax -/

/-- The array the log-softmax is taken of is the aggregated array plus the bias row. -/
theorem v66_eq (x0 : (⟨S50000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v66 (F := Ideal) x0 x1 x2 x3 x4 x5
      = addBias64 (val_main_v63 (F := Ideal) x0 x1 x2 x3 x4) (val_main_v64 (F := Ideal) x5) := by
  funext i
  rw [val_main_v66_apply, val_main_v65_apply, idx65_eq]
  rfl

/-- The row maximum broadcast back over the row: at entry `i` it is `rowMax` of `i`'s row. The reference takes the
    maximum of the fold with −∞ once more, which changes nothing. -/
theorem call2_v4_eq (x0 : (⟨S50000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) (i : S50000x64.Idx) :
    val_main_call2_v4 (F := Ideal) x0 x1 x2 x3 x4 x5 i
      = rowMax (val_main_v66 (F := Ideal) x0 x1 x2 x3 x4 x5) (rowOf64 i) := by
  rw [val_main_call2_v4_apply, val_main_call2_v3_apply, val_main_call2_v2_apply, val_main_call2_v1_apply,
    val_main_call2_cst_0_apply]
  have hj : idx_main_call2_v3 (idx_main_call2_v4 i) = ix1 (rowOf64 i) :=
    funext fun a => Fin.ext (by match a with | ⟨0, _⟩ => rfl)
  rw [hj]
  unfold val_main_call2_v0
  generalize val_main_v66 (F := Ideal) x0 x1 x2 x3 x4 x5 = z
  exact (max_negInf _).trans (reduce_max_row z _ (fun j => val_main_call2_cst_apply j) _ _ (rowOf64 i))

/-- The last step over ONE array `z`: the entry less its row's maximum, less the logarithm of the row's sum of
    exponentials taken from the zero word, is `logSoftmaxRows z` at that entry. -/
theorem assemble (z : FVec Ideal S50000x64 .f32) (i : S50000x64.Idx) (e : Fin 64 → Ideal .f32)
    (he : ∀ k, e k = Ideal.exp (z (rowAt64 (rowOf64 i) k) - rowMax z (rowOf64 i))) :
    FloatOps.subf (FloatOps.subf (z i) (rowMax z (rowOf64 i)))
        (FloatOps.hostUnary .log (FloatOps.ofBits .f32 0x00000000#32 + ∑ k : Fin 64, e k))
      = logSoftmaxRows z i := by
  rw [show e = fun k => Ideal.exp (z (rowAt64 (rowOf64 i) k) - rowMax z (rowOf64 i)) from funext he]
  rw [Ideal.ofBits_def, Ideal.ofBits_zero_f32, zero_add]
  rfl

/-- One term of the row's sum over ONE array `z`: the exponential of entry (r, k) less the maximum of that entry's row,
    which is row `r`. -/
theorem exp_entry (z : FVec Ideal S50000x64 .f32) (r : Fin 50000) (k : Fin 64) :
    FloatOps.hostUnary .exp (FloatOps.subf (z (rowAt64 r k)) (rowMax z (rowOf64 (rowAt64 r k))))
      = Ideal.exp (z (rowAt64 r k) - rowMax z r) := rfl

/-- Bias, then jax's `log_softmax`: `logSoftmaxRows` of the aggregated array plus the bias as one row. -/
theorem logsoftmax (x0 : (⟨S50000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v67 (F := Ideal) x0 x1 x2 x3 x4 x5
      = logSoftmaxRows (addBias64 (val_main_v63 (F := Ideal) x0 x1 x2 x3 x4) (val_main_v64 (F := Ideal) x5)) := by
  rw [← v66_eq]
  funext i
  rw [val_main_v67_apply, val_main_call2_v10_apply, val_main_call2_v9_apply, val_main_call2_v8_apply,
    val_main_call2_v7_apply, val_main_call2_cst_1_apply, val_main_call2_v5_apply, call2_v4_eq]
  refine assemble (val_main_v66 (F := Ideal) x0 x1 x2 x3 x4 x5) i _ fun k => ?_
  have hm : idx_main_call2_v7 (idx_main_call2_v8 (idx_main_call2_v10 i)) k = rowAt64 (rowOf64 i) k :=
    funext fun a => Fin.ext (by match a with | ⟨0, _⟩ => rfl | ⟨1, _⟩ => rfl)
  rw [hm, val_main_call2_v6_apply, val_main_call2_v5_apply, call2_v4_eq]
  generalize val_main_v66 (F := Ideal) x0 x1 x2 x3 x4 x5 = z
  exact exp_entry z (rowOf64 i) k

end Cert.ReferenceIdeal.Stages

end
-- ==== Proof.KEntry.lean ====
/-
  The idealized kernel program's buffers when its first region is entered.

  Before the first region @main runs 43 host operations on the integer argument alone: the source and destination
  lists of the edges with one self-loop per node appended, the degree of every node (a scatter-add of ones), its
  inverse square root where the degree is positive, and the product of the two end-points' factors per edge.
  They are, line for line, the reference's first 43 operations, so the three buffers later stretches read hold
  the reference's stages of the same argument, and no operation writes an argument.
-/
import proofs.«119653_j4990751998611_1_alg».proof.Proof.Gen.KernelIdeal.Frame
import proofs.«119653_j4990751998611_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

/-! ## The first stretch, from any contents -/

set_option maxHeartbeats 1000000 in
/-- The sources' list after the first stretch: the first row of the argument, then one self-loop per node. -/
theorem s1_v3 (W : Valuation τ sig (Elt Ideal)) :
    StableHlo.after (hostOps0 (F := Ideal)) W (Proc.devRef .tc main_v3)
      = Cert.ReferenceIdeal.ReadP.val_main_v3 (F := Ideal) (W (Proc.devRef .tc main_arg1)) := by
  after_results
  unfold Cert.ReferenceIdeal.ReadP.val_main_v3 Cert.ReferenceIdeal.ReadP.val_main_v2 Cert.ReferenceIdeal.ReadP.val_main_v1 Cert.ReferenceIdeal.ReadP.val_main_v0
  rfl

set_option maxHeartbeats 1000000 in
/-- The destinations' list after the first stretch: the second row of the argument, then one self-loop per node. -/
theorem s1_v6 (W : Valuation τ sig (Elt Ideal)) :
    StableHlo.after (hostOps0 (F := Ideal)) W (Proc.devRef .tc main_v6)
      = Cert.ReferenceIdeal.ReadP.val_main_v6 (F := Ideal) (W (Proc.devRef .tc main_arg1)) := by
  after_results
  unfold Cert.ReferenceIdeal.ReadP.val_main_v6 Cert.ReferenceIdeal.ReadP.val_main_v5 Cert.ReferenceIdeal.ReadP.val_main_v4 Cert.ReferenceIdeal.ReadP.val_main_v0
  rfl

set_option maxHeartbeats 1000000 in
/-- Where the degree is positive. -/
theorem s1_v12 (W : Valuation τ sig (Elt Ideal)) :
    StableHlo.after (hostOps0 (F := Ideal)) W (Proc.devRef .tc main_v12)
      = Cert.ReferenceIdeal.ReadP.val_main_v12 (F := Ideal) (W (Proc.devRef .tc main_arg1)) := by
  after_results
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v9 Cert.ReferenceIdeal.ReadP.val_main_v8 Cert.ReferenceIdeal.ReadP.val_main_cst_0 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

set_option maxHeartbeats 1000000 in
/-- The inverse square root of the degree (of 1 where the degree is below 1). -/
theorem s1_v15 (W : Valuation τ sig (Elt Ideal)) :
    StableHlo.after (hostOps0 (F := Ideal)) W (Proc.devRef .tc main_v15)
      = Cert.ReferenceIdeal.ReadP.val_main_v15 (F := Ideal) (W (Proc.devRef .tc main_arg1)) := by
  after_results
  unfold Cert.ReferenceIdeal.ReadP.val_main_v15 Cert.ReferenceIdeal.ReadP.val_main_v14 Cert.ReferenceIdeal.ReadP.val_main_v13 Cert.ReferenceIdeal.ReadP.val_main_cst_2 Cert.ReferenceIdeal.ReadP.val_main_v10 Cert.ReferenceIdeal.ReadP.val_main_v9 Cert.ReferenceIdeal.ReadP.val_main_v8 Cert.ReferenceIdeal.ReadP.val_main_cst_0 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

set_option maxHeartbeats 1000000 in
/-- The zero the selection falls back to. -/
theorem s1_cst3 (W : Valuation τ sig (Elt Ideal)) :
    StableHlo.after (hostOps0 (F := Ideal)) W (Proc.devRef .tc main_cst_3) = Cert.ReferenceIdeal.ReadP.val_main_cst_3 (F := Ideal) := by
  after_results
  rfl
/-! ## The called selection, from any contents -/

set_option maxHeartbeats 1000000 in
/-- The node factor: the inverse square root of the degree where the degree is positive, zero elsewhere — from the
    three values the first stretch left. -/
theorem s2_v16 (W : Valuation τ sig (Elt Ideal)) (x1 : (⟨Cert.ReferenceIdeal.S2x1600000, .i32⟩ : BufTy).Contents (Elt Ideal))
    (h12 : W (Proc.devRef .tc main_v12) = Cert.ReferenceIdeal.ReadP.val_main_v12 (F := Ideal) x1)
    (h15 : W (Proc.devRef .tc main_v15) = Cert.ReferenceIdeal.ReadP.val_main_v15 (F := Ideal) x1)
    (hc : W (Proc.devRef .tc main_cst_3) = Cert.ReferenceIdeal.ReadP.val_main_cst_3 (F := Ideal)) :
    StableHlo.after (hostOps0_1 (F := Ideal)) W (Proc.devRef .tc main_v16) = Cert.ReferenceIdeal.ReadP.val_main_v16 (F := Ideal) x1 := by
  after_results
  simp only [TRef.ofBuf, TRef.toBuf, cast_eq]
  rw [h12, h15, hc]
  unfold Cert.ReferenceIdeal.ReadP.val_main_v16 Cert.ReferenceIdeal.ReadP.val_main_call0_v1 Cert.ReferenceIdeal.ReadP.val_main_call0_v0
  rfl

set_option maxHeartbeats 1000000 in
/-- The selection writes neither edge list. -/
theorem s2_keep_v3 (W : Valuation τ sig (Elt Ideal)) :
    StableHlo.after (hostOps0_1 (F := Ideal)) W (Proc.devRef .tc main_v3) = W (Proc.devRef .tc main_v3) := by
  after_results

set_option maxHeartbeats 1000000 in
theorem s2_keep_v6 (W : Valuation τ sig (Elt Ideal)) :
    StableHlo.after (hostOps0_1 (F := Ideal)) W (Proc.devRef .tc main_v6) = W (Proc.devRef .tc main_v6) := by
  after_results

/-! ## The third stretch, from any contents -/

set_option maxHeartbeats 1000000 in
/-- The third stretch reads the edge lists and writes neither. -/
theorem s3_keep_v3 (W : Valuation τ sig (Elt Ideal)) :
    StableHlo.after (hostOps0_2 (F := Ideal)) W (Proc.devRef .tc main_v3) = W (Proc.devRef .tc main_v3) := by
  after_results

set_option maxHeartbeats 1000000 in
theorem s3_keep_v6 (W : Valuation τ sig (Elt Ideal)) :
    StableHlo.after (hostOps0_2 (F := Ideal)) W (Proc.devRef .tc main_v6) = W (Proc.devRef .tc main_v6) := by
  after_results

set_option maxHeartbeats 1000000 in
/-- The per-edge factor: the node factor gathered at the edge's source (indices below zero wrapped by 50000) times
    the node factor gathered at its destination — from the node factor and the two edge lists. -/
theorem s3_v31 (W : Valuation τ sig (Elt Ideal)) (x1 : (⟨Cert.ReferenceIdeal.S2x1600000, .i32⟩ : BufTy).Contents (Elt Ideal))
    (h16 : W (Proc.devRef .tc main_v16) = Cert.ReferenceIdeal.ReadP.val_main_v16 (F := Ideal) x1)
    (h3 : W (Proc.devRef .tc main_v3) = Cert.ReferenceIdeal.ReadP.val_main_v3 (F := Ideal) x1)
    (h6 : W (Proc.devRef .tc main_v6) = Cert.ReferenceIdeal.ReadP.val_main_v6 (F := Ideal) x1) :
    StableHlo.after (hostOps0_2 (F := Ideal)) W (Proc.devRef .tc main_v31) = Cert.ReferenceIdeal.ReadP.val_main_v31 (F := Ideal) x1 := by
  after_results
  rw [h16, h3, h6]
  unfold Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_c_6 Cert.ReferenceIdeal.ReadP.val_main_v25 Cert.ReferenceIdeal.ReadP.val_main_v24 Cert.ReferenceIdeal.ReadP.val_main_c_5 Cert.ReferenceIdeal.ReadP.val_main_v23 Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_c_4 Cert.ReferenceIdeal.ReadP.val_main_v18 Cert.ReferenceIdeal.ReadP.val_main_v17 Cert.ReferenceIdeal.ReadP.val_main_c
  rfl

variable (m : (ℓ : Loc nD τ sig) → Buf (Elt Ideal) ℓ) (ρ : Dev nD → PrngReg)

/-- The edges' sources (with the self-loops). -/
theorem src (c : Dev nD) :
    W3 (F := Ideal) m ρ c (Proc.devRef .tc main_v3)
      = Cert.ReferenceIdeal.ReadP.val_main_v3 (F := Ideal) (m ((c : Thread nD τ).loc main_arg1)) := by
  show StableHlo.after (hostOps0_2 (F := Ideal)) (StableHlo.after (hostOps0_1 (F := Ideal)) (StableHlo.after (hostOps0 (F := Ideal)) (W0 m ρ c))) (Proc.devRef .tc main_v3) = _
  rw [s3_keep_v3, s2_keep_v3, s1_v3]

/-- The edges' destinations (with the self-loops). -/
theorem dst (c : Dev nD) :
    W3 (F := Ideal) m ρ c (Proc.devRef .tc main_v6)
      = Cert.ReferenceIdeal.ReadP.val_main_v6 (F := Ideal) (m ((c : Thread nD τ).loc main_arg1)) := by
  show StableHlo.after (hostOps0_2 (F := Ideal)) (StableHlo.after (hostOps0_1 (F := Ideal)) (StableHlo.after (hostOps0 (F := Ideal)) (W0 m ρ c))) (Proc.devRef .tc main_v6) = _
  rw [s3_keep_v6, s2_keep_v6, s1_v6]

/-- The per-edge normalisation factor. -/
theorem norm (c : Dev nD) :
    W3 (F := Ideal) m ρ c (Proc.devRef .tc main_v31)
      = Cert.ReferenceIdeal.ReadP.val_main_v31 (F := Ideal) (m ((c : Thread nD τ).loc main_arg1)) := by
  show StableHlo.after (hostOps0_2 (F := Ideal)) (StableHlo.after (hostOps0_1 (F := Ideal)) (StableHlo.after (hostOps0 (F := Ideal)) (W0 m ρ c))) (Proc.devRef .tc main_v31) = _
  exact s3_v31 _ _ (s2_v16 _ _ (s1_v12 _) (s1_v15 _) (s1_cst3 _))
    ((s2_keep_v3 _).trans (s1_v3 _)) ((s2_keep_v6 _).trans (s1_v6 _))

/-- No host operation before the first region writes an argument. -/
theorem arg0 (c : Dev nD) : W3 (F := Ideal) m ρ c (Proc.devRef .tc main_arg0) = m ((c : Thread nD τ).loc main_arg0) := by
  show StableHlo.after (hostOps0_2 (F := Ideal)) (StableHlo.after (hostOps0_1 (F := Ideal)) (StableHlo.after (hostOps0 (F := Ideal)) (W0 m ρ c))) (Proc.devRef .tc main_arg0) = _
  after_results <;> rfl
theorem arg2 (c : Dev nD) : W3 (F := Ideal) m ρ c (Proc.devRef .tc main_arg2) = m ((c : Thread nD τ).loc main_arg2) := by
  show StableHlo.after (hostOps0_2 (F := Ideal)) (StableHlo.after (hostOps0_1 (F := Ideal)) (StableHlo.after (hostOps0 (F := Ideal)) (W0 m ρ c))) (Proc.devRef .tc main_arg2) = _
  after_results <;> rfl
theorem arg3 (c : Dev nD) : W3 (F := Ideal) m ρ c (Proc.devRef .tc main_arg3) = m ((c : Thread nD τ).loc main_arg3) := by
  show StableHlo.after (hostOps0_2 (F := Ideal)) (StableHlo.after (hostOps0_1 (F := Ideal)) (StableHlo.after (hostOps0 (F := Ideal)) (W0 m ρ c))) (Proc.devRef .tc main_arg3) = _
  after_results <;> rfl
theorem arg4 (c : Dev nD) : W3 (F := Ideal) m ρ c (Proc.devRef .tc main_arg4) = m ((c : Thread nD τ).loc main_arg4) := by
  show StableHlo.after (hostOps0_2 (F := Ideal)) (StableHlo.after (hostOps0_1 (F := Ideal)) (StableHlo.after (hostOps0 (F := Ideal)) (W0 m ρ c))) (Proc.devRef .tc main_arg4) = _
  after_results <;> rfl
theorem arg5 (c : Dev nD) : W3 (F := Ideal) m ρ c (Proc.devRef .tc main_arg5) = m ((c : Thread nD τ).loc main_arg5) := by
  show StableHlo.after (hostOps0_2 (F := Ideal)) (StableHlo.after (hostOps0_1 (F := Ideal)) (StableHlo.after (hostOps0 (F := Ideal)) (W0 m ρ c))) (Proc.devRef .tc main_arg5) = _
  after_results <;> rfl

end Cert.KernelIdeal.Entry

end
-- ==== Proof.Dense0.lean ====
/-
  The first product, 5000 rows at a time. Grid point t multiplies rows 5000·t … 5000·t + 4999 of the left array by
  the whole right array and writes the 5000 × 128 block back at the same rows; the ten blocks tile the 50000 rows,
  and entry (r, j) of the product needs only row r of the left array, so the array the region leaves is the
  whole-array product `xw1`, whatever the region found in its buffers.
-/
import proofs.«119653_j4990751998611_1_alg».proof.Proof.Gen.KernelIdeal.Frame
import proofs.«119653_j4990751998611_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Dense0

open Cert.KernelIdeal Cert.KernelIdeal.Gen Cert.GcnSpec

-- The TensorCore's buffers as the region finds them: any contents at all.
variable (V : (c : Dev nD) → (b : Ref sig .tc) → Buf (Elt Ideal) ((c : Thread nD τ).loc b))

/-! ## The block product at an entry -/

/-- Both zero offsets of a whole-block access, as the constant function. -/
theorem hz : (![0, 0] : Fin 2 → Nat) = fun _ => 0 := funext fun a => by
  match a with
  | ⟨0, _⟩ => rfl
  | ⟨1, _⟩ => rfl

/-- The left operand's row coordinate is the output entry's row. -/
theorem lhs_axis0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the summation index. -/
theorem lhs_axis1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row coordinate is the summation index. -/
theorem rhs_axis0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column coordinate is the output entry's column. -/
theorem rhs_axis1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- For the block entry `j` = (r, j'): entry (r, k) of the left block. -/
abbrev blkLeft (j : S5000x128.Idx) (k : Fin 256) : S5000x256.Idx := fun a => match a with
  | ⟨0, _⟩ => ⟨(j 0).val, (j 0).isLt⟩
  | ⟨1, _⟩ => ⟨k.val, k.isLt⟩
/-- For the block entry `j` = (r, j'): entry (k, j') of the right array. -/
abbrev blkRight (j : S5000x128.Idx) (k : Fin 256) : S256x128.Idx := fun a => match a with
  | ⟨0, _⟩ => ⟨k.val, k.isLt⟩
  | ⟨1, _⟩ => ⟨(j 1).val, (j 1).isLt⟩

/-- The body's arithmetic at an entry of the block: rounding to bf16 is the identity on the extended reals and the
    accumulator is the zero splat, so entry (r, j') is ∑ₖ left(r, k) · right(k, j'). -/
theorem pay_apply (x : FVec Ideal S5000x256 .f32) (w : FVec Ideal S256x128 .f32) (j : S5000x128.Idx) :
    k0_pay1 (F := Ideal) x w j = ∑ k : Fin 256, x (blkLeft j k) * w (blkRight j k) := by
  unfold k0_pay1
  show FloatOps.matmul dot_S5000x256_S256x128_S5000x128_1_0_0_1_n_n none (truncf .bf16 x bitsLt_bf16_f32) (truncf .bf16 w bitsLt_bf16_f32) (constant S5000x128 .f32 0x00000000#32) j = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = blkLeft j k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx j ((ValueIdx.contrEquiv1 dot_S5000x256_S256x128_S5000x128_1_0_0_1_n_n 256 rfl rfl).symm k) = blkRight j k := funext fun a => Fin.ext (by
    match a with
    | ⟨0, _⟩ => exact (rhs_axis0 _ _).trans hk
    | ⟨1, _⟩ => exact rhs_axis1 _ _)
  rw [el, er]
  rfl

/-! ## From the blocks to the array -/

/-- The printed index maps, decided over the grid: point t's left block and output block are both block t along the
    rows and block 0 along the columns; the right array is one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the whole-array product of the two arrays as the region finds them. -/
theorem flushed_eq (c : Dev nD) (t : Fin cfg0.N) :
    (dat0 (F := Ideal) V c).flushed 2 t = ((cfg0.win 2).blk t).view.read (Elt Ideal) (xw1 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (F := Ideal) (iblk0 V c 0 t) (iblk0 V c 1 t) j = xw1 (V c main_arg0) (V c main_arg2) (((cfg0.win 2).blk t).view.emb j)
  rw [pay_apply]
  unfold xw1
  refine Finset.sum_congr rfl fun k _ => ?_
  have hl : ((cfg0.win 0).blk t).view.emb (blkLeft j k) = leftAt1 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hr : ((cfg0.win 1).blk t).view.emb (blkRight j k) = rightAt1 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  congr 1
  · show V c main_arg0 (((cfg0.win 0).blk t).view.emb (blkLeft j k)) = V c main_arg0 (leftAt1 (((cfg0.win 2).blk t).view.emb j) k)
    rw [hl]
  · show V c main_arg2 (((cfg0.win 1).blk t).view.emb (blkRight j k)) = V c main_arg2 (rightAt1 (((cfg0.win 2).blk t).view.emb j) k)
    rw [hr]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten blocks tile the rows: row r is in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its output array is the product of its two input arrays, entry by entry. -/
theorem final (c : Dev nD) :
    (dat0 (F := Ideal) V c).arrAt 2 cfg0.N = xw1 (V c main_arg0) (V c main_arg2) :=
  (dat0 (F := Ideal) V c).arrAt_eq_of_cover 2 (xw1 (V c main_arg0) (V c main_arg2)) (fun t _ => flushed_eq V c t) cover

end Cert.KernelIdeal.Dense0

end
-- ==== Proof.Ramp.lean ====
/-
  Bias and ramp, 5000 rows at a time. Grid point t adds the one bias row to rows 5000·t … 5000·t + 4999 and takes
  the maximum with zero, entry by entry; the ten blocks tile the 50000 rows, so the array the region leaves is
  `biasRamp` of the two arrays it found.
-/
import proofs.«119653_j4990751998611_1_alg».proof.Proof.Gen.KernelIdeal.Frame
import proofs.«119653_j4990751998611_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Ramp

open Cert.KernelIdeal Cert.KernelIdeal.Gen Cert.GcnSpec

-- The TensorCore's buffers as the region finds them: any contents at all.
variable (V : (c : Dev nD) → (b : Ref sig .tc) → Buf (Elt Ideal) ((c : Thread nD τ).loc b))

/-- The two zero offsets, however they are spelt, are the zero function. -/
theorem hz : (![0, 0] : Fin 2 → Nat) = fun _ => 0 := funext fun a => by fin_cases a <;> rfl

/-- The body's arithmetic at entry (p, q) of a block: the block's entry plus entry (0, q) of the bias row, then the
    maximum with zero. The casts between equal shapes change nothing; the row broadcast reads the one row at column q;
    the zero word broadcast is zero at every entry; sum and maximum are taken entry by entry. -/
theorem pay_apply (b : FVec Ideal S1x128 .f32) (x : FVec Ideal S5000x128 .f32) (p : Fin 5000) (q : Fin 128) :
    k1_pay1 b x (ix2 p q) = max (x (ix2 p q) + b (ix2 (0 : Fin 1) q)) (Ideal.ofBits .f32 0x00000000#32) := by
  unfold k1_pay1
  simp only [shapeCast_self]
  rw [maximumf_apply, addf_apply, broadcast_apply, broadcastTo_1b_ab_apply]
  rfl

/-- One entry of one block against the whole-array function: when the block's entry (p, q) is entry `i` of the
    array `a`, and the bias block's entry (0, q) is the bias row's entry that `i` takes, the body's value at (p, q)
    is `biasRamp a b` at `i`. -/
theorem point_eq (a : FVec Ideal S50000x128 .f32) (b : FVec Ideal S1x128 .f32)
    (x : FVec Ideal S5000x128 .f32) (r : FVec Ideal S1x128 .f32) (p : Fin 5000) (q : Fin 128) (i : S50000x128.Idx)
    (hx : x (ix2 p q) = a i) (hr : r (ix2 (0 : Fin 1) q) = b (biasAt128 i)) :
    k1_pay1 r x (ix2 p q) = biasRamp a b i := by
  rw [pay_apply, hx, hr]; rfl

/-- The three index maps over the ten grid points: the input rows' block and the output's block are the same block,
    block (t, 0); the bias row's block is always block (0, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of `biasRamp` of the two arrays the region found. A block's
    coordinate on an axis is block index × block size + 1 × the coordinate inside the block: entry (p, q) of the
    output block is row 5000·t + p, column q of the array, which is where the input block's entry (p, q) was read;
    the bias block's entry (0, q) is entry (0, q) of the bias row, the entry that row 5000·t + p, column q takes. -/
theorem flushed_eq (c : Dev nD) (t : Fin cfg1.N) :
    (dat1 (F := Ideal) V c).flushed 2 t
      = ((cfg1.win 2).blk t).view.read (Elt Ideal) (biasRamp (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = biasAt128 (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  show k1_pay1 (iblk1 V c 1 t) (iblk1 V c 0 t) (ix2 p q)
    = biasRamp (V c main_v45) (V c main_v46) (((cfg1.win 2).blk t).view.emb (ix2 p q))
  refine point_eq (V c main_v45) (V c main_v46) _ _ p q _ ?_ ?_
  · show V c main_v45 (((cfg1.win 0).blk t).view.emb (ix2 p q)) = V c main_v45 (((cfg1.win 2).blk t).view.emb (ix2 p q))
    rw [h0]
  · show V c main_v46 (((cfg1.win 1).blk t).view.emb (ix2 (0 : Fin 1) q)) = V c main_v46 (biasAt128 (((cfg1.win 2).blk t).view.emb (ix2 p q)))
    rw [h1]

/-- An entry of the array is in point `t`'s output block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- The ten blocks tile the 50000 rows: entry (r, j) is in the block of point r / 5000, which writes back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := idx_facts t
  have e4' : win1_2.index t (0 : Fin 2) = (i 0).val / 5000 := e4
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After region 1 its output array is max(a + b, 0) of its two input arrays, entry by entry. -/
theorem final (c : Dev nD) :
    (dat1 (F := Ideal) V c).arrAt 2 cfg1.N = biasRamp (V c main_v45) (V c main_v46) := by
  exact (dat1 V c).arrAt_eq_of_cover 2 (biasRamp (V c main_v45) (V c main_v46)) (fun t _ => flushed_eq V c t) cover

end Cert.KernelIdeal.Ramp

end
-- ==== Proof.Dense2.lean ====
/-
  The second product, 5000 rows at a time. Grid point t multiplies rows 5000·t … 5000·t + 4999 of the left array
  by the whole right array and writes the 5000 × 64 block back at the same rows; the ten blocks tile the 50000
  rows, and entry (r, j) of the product needs only row r of the left array, so the array the region leaves is the
  whole-array product `xw2`, whatever the region found in its buffers.
-/
import proofs.«119653_j4990751998611_1_alg».proof.Proof.Gen.KernelIdeal.Frame
import proofs.«119653_j4990751998611_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Dense2

open Cert.KernelIdeal Cert.KernelIdeal.Gen Cert.GcnSpec

-- The TensorCore's buffers as the region finds them: any contents at all.
variable (V : (c : Dev nD) → (b : Ref sig .tc) → Buf (Elt Ideal) ((c : Thread nD τ).loc b))

/-! ## The block product at an entry -/

/-- Both zero offsets of a whole-block access, as the constant function. -/
theorem hz : (![0, 0] : Fin 2 → Nat) = fun _ => 0 := funext fun a => by
  match a with
  | ⟨0, _⟩ => rfl
  | ⟨1, _⟩ => rfl

/-- The left operand's row coordinate is the output entry's row. -/
theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the summation index. -/
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the summation index. -/
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output entry's column. -/
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- For the block entry `j` = (r, j'): entry (r, k) of the left block. -/
abbrev blkLeft (j : S5000x64.Idx) (k : Fin 128) : S5000x128.Idx := fun a => match a with
  | ⟨0, _⟩ => ⟨(j 0).val, (j 0).isLt⟩
  | ⟨1, _⟩ => ⟨k.val, k.isLt⟩
/-- For the block entry `j` = (r, j'): entry (k, j') of the right array. -/
abbrev blkRight (j : S5000x64.Idx) (k : Fin 128) : S128x64.Idx := fun a => match a with
  | ⟨0, _⟩ => ⟨k.val, k.isLt⟩
  | ⟨1, _⟩ => ⟨(j 1).val, (j 1).isLt⟩

/-- The body's arithmetic at an entry of the block: the cast to the same shape and the rounding to bf16 are the
    identity on the extended reals and the accumulator is the zero splat, so entry (r, j') is
    ∑ₖ left(r, k) · right(k, j'). -/
theorem pay_apply (x : FVec Ideal S5000x128 .f32) (w : FVec Ideal S128x64 .f32) (j : S5000x64.Idx) :
    k2_pay1 (F := Ideal) x w j = ∑ k : Fin 128, x (blkLeft j k) * w (blkRight j k) := by
  unfold k2_pay1
  show FloatOps.matmul dot_S5000x128_S128x64_S5000x64_1_0_0_1_n_n none (truncf .bf16 (shapeCast S5000x128 x shapeCasts_S5000x128_S5000x128) bitsLt_bf16_f32) (truncf .bf16 w bitsLt_bf16_f32) (constant S5000x64 .f32 0x00000000#32) j = _
  rw [shapeCast_self, Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkLeft j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = blkRight j k := funext fun a => Fin.ext (by
    match a with
    | ⟨0, _⟩ => exact (rhs_axis0 _ _).trans hk
    | ⟨1, _⟩ => exact rhs_axis1 _ _)
  rw [el, er]
  rfl

/-! ## From the blocks to the array -/

/-- The printed index maps, decided over the grid: point t's left block and output block are both block t along the
    rows and block 0 along the columns; the right array is one block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT POINT `t` WRITES BACK is block `t` of the whole-array product of the two arrays as the region finds them. -/
theorem flushed_eq (c : Dev nD) (t : Fin cfg2.N) :
    (dat2 (F := Ideal) V c).flushed 2 t = ((cfg2.win 2).blk t).view.read (Elt Ideal) (xw2 (V c main_v47) (V c main_arg4)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (F := Ideal) (iblk2 V c 0 t) (iblk2 V c 1 t) j = xw2 (V c main_v47) (V c main_arg4) (((cfg2.win 2).blk t).view.emb j)
  rw [pay_apply]
  unfold xw2
  refine Finset.sum_congr rfl fun k _ => ?_
  have hl : ((cfg2.win 0).blk t).view.emb (blkLeft j k) = leftAt2 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : ((cfg2.win 1).blk t).view.emb (blkRight j k) = rightAt2 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  congr 1
  · show V c main_v47 (((cfg2.win 0).blk t).view.emb (blkLeft j k)) = V c main_v47 (leftAt2 (((cfg2.win 2).blk t).view.emb j) k)
    rw [hl]
  · show V c main_arg4 (((cfg2.win 1).blk t).view.emb (blkRight j k)) = V c main_arg4 (rightAt2 (((cfg2.win 2).blk t).view.emb j) k)
    rw [hr]

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The ten blocks tile the rows: row r is in the block of point r / 5000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After region 2 its output array is the product of its two input arrays, entry by entry. -/
theorem final (c : Dev nD) :
    (dat2 (F := Ideal) V c).arrAt 2 cfg2.N = xw2 (V c main_v47) (V c main_arg4) :=
  (dat2 (F := Ideal) V c).arrAt_eq_of_cover 2 (xw2 (V c main_v47) (V c main_arg4)) (fun t _ => flushed_eq V c t) cover

end Cert.KernelIdeal.Dense2

end
-- ==== Proof.LogSoftmax.lean ====
/-
  Bias and row-wise log-softmax, 5000 rows at a time. Grid point t adds the one bias row to rows
  5000·t … 5000·t + 4999, and for each of them subtracts the row's maximum and then the logarithm of the row's sum
  of exponentials. A row's maximum and sum see only that row, which lies inside one block; the ten blocks tile
  the 50000 rows, so the array the region leaves is `logSoftmaxRows (addBias64 · ·)` of the two arrays it found.
-/
import proofs.«119653_j4990751998611_1_alg».proof.Proof.Gen.KernelIdeal.Frame
import proofs.«119653_j4990751998611_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.LogSoftmax

open Cert.KernelIdeal Cert.KernelIdeal.Gen Cert.GcnSpec

section Layout
variable {α : Type}

/-- A vector of length a kept as a column [a, 1] reads, at (p, u), the vector at p. -/
theorem cast_column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread over b lanes reads, at (p, q), the column at (p, 0). -/
theorem spread_column_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- A block's row maximum from −∞, at row p: the fold of max over the row's 64 entries. -/
theorem blockRowMax_apply (z : FVec Ideal S5000x64 .f32) (h : S5000x64.Reduces [1] S5000) (hφ : FKind.Formats .f32)
    (hacc : (0xFF800000#32 : BitVec 32) = FKind.maximumf.neutral .f32 hφ) (p : Fin 5000) :
    multiReduction (F := Ideal) .maximumf [1] S5000 z 0xFF800000#32 h hφ hacc (ix1 p)
      = (Finset.univ : Finset (Fin 64)).fold max (Ideal.ofBits .f32 0xFF800000#32) (fun k => z (ix2 p k)) := by
  refine (Ideal.multiReduction_maximumf_single z _ h hφ hacc (ix1 p)).trans ?_
  show (Finset.univ : Finset (Fin 64)).fold max (Ideal.ofBits .f32 0xFF800000#32) (fun k => z (h.lift (ix1 p) k)) = _
  refine congrArg (fun f => (Finset.univ : Finset (Fin 64)).fold max (Ideal.ofBits .f32 0xFF800000#32) f)
    (funext fun k => congrArg z (funext fun a => ?_))
  match a with
  | ⟨0, _⟩ => exact Fin.ext rfl
  | ⟨1, _⟩ => exact Fin.ext rfl

/-- A block's row sum, at row p: the sum of the row's 64 entries. -/
theorem blockRowSum_apply (e : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 e 0x00000000#32 h hφ hacc (ix1 p) = ∑ k : Fin 64, e (ix2 p k) := by
  refine (Ideal.multiReduction_add_single e _ h hφ hacc (ix1 p)).trans ?_
  show ∑ k : Fin 64, e (h.lift (ix1 p) k) = _
  refine Finset.sum_congr rfl fun k _ => congrArg e (funext fun a => ?_)
  match a with
  | ⟨0, _⟩ => exact Fin.ext rfl
  | ⟨1, _⟩ => exact Fin.ext rfl

/-- The exponential of a block, entry by entry. -/
theorem exp_apply {s : Shape} (x : FVec Ideal s .f32) (i : s.Idx) : exp x i = Ideal.exp (x i) := rfl
/-- The logarithm of a block, entry by entry. -/
theorem log_apply {s : Shape} (x : FVec Ideal s .f32) (i : s.Idx) : log x i = Ideal.log (x i) := rfl

/-- The largest entry of row p of a block, from −∞. -/
def blockMax (z : FVec Ideal S5000x64 .f32) (p : Fin 5000) : Ideal .f32 :=
  (Finset.univ : Finset (Fin 64)).fold max (Ideal.ofBits .f32 0xFF800000#32) (fun k => z (ix2 p k))

/-- The body's arithmetic on a block z of 5000 rows, at entry (p, q): z(p, q) less row p's maximum, less the
    logarithm of the sum over row p of exp(z − maximum). -/
theorem softmaxBody_apply (z : FVec Ideal S5000x64 .f32) (hr : S5000x64.Reduces [1] S5000) (hφ : FKind.Formats .f32)
    (hm : (0xFF800000#32 : BitVec 32) = FKind.maximumf.neutral .f32 hφ) (ha : (0x00000000#32 : BitVec 32) = FKind.add.neutral .f32 hφ)
    (hc : S5000.ShapeCasts S5000x1) (hb : S5000x1.Broadcasts S5000x64) (p : Fin 5000) (q : Fin 64) :
    subf (subf z (broadcastTo S5000x64 (shapeCast S5000x1 (multiReduction (F := Ideal) .maximumf [1] S5000 z 0xFF800000#32 hr hφ hm) hc) hb))
        (broadcastTo S5000x64 (log (shapeCast S5000x1 (multiReduction (F := Ideal) .add [1] S5000
          (exp (subf z (broadcastTo S5000x64 (shapeCast S5000x1 (multiReduction (F := Ideal) .maximumf [1] S5000 z 0xFF800000#32 hr hφ hm) hc) hb)))
          0x00000000#32 hr hφ ha) hc)) hb) (ix2 p q)
      = (z (ix2 p q) - blockMax z p) - Ideal.log (∑ k : Fin 64, Ideal.exp (z (ix2 p k) - blockMax z p)) := by
  have hM : ∀ k : Fin 64, broadcastTo S5000x64 (shapeCast S5000x1 (multiReduction (F := Ideal) .maximumf [1] S5000 z 0xFF800000#32 hr hφ hm) hc) hb (ix2 p k)
      = blockMax z p := fun k =>
    (spread_column_apply _ hb p k).trans ((cast_column_apply _ hc p 0).trans (blockRowMax_apply z hr hφ hm p))
  rw [subf_apply, subf_apply, hM q]
  refine congrArg (fun y => (z (ix2 p q) - blockMax z p) - y) ?_
  refine (spread_column_apply _ hb p q).trans ?_
  rw [log_apply, cast_column_apply _ hc p 0, blockRowSum_apply _ hr hφ ha p]
  refine congrArg Ideal.log (Finset.sum_congr rfl fun k _ => ?_)
  rw [exp_apply, subf_apply, hM k]

/-- The body's output block at entry (p, q), in the entries of the row block x0 and of the bias row x1. -/
theorem pay_apply (x0 : Vec Ideal S5000x64 .f32) (x1 : Vec Ideal S1x64 .f32) (p : Fin 5000) (q : Fin 64) :
    k3_pay1 x1 x0 (ix2 p q)
      = ((x0 (ix2 p q) + x1 (ix2 (0 : Fin 1) q)) - blockMax (fun i => x0 i + x1 (ix2 (0 : Fin 1) (i 1))) p)
        - Ideal.log (∑ k : Fin 64, Ideal.exp ((x0 (ix2 p k) + x1 (ix2 (0 : Fin 1) k)) - blockMax (fun i => x0 i + x1 (ix2 (0 : Fin 1) (i 1))) p)) := by
  have hz : addf (F := Ideal) (φ := .f32) (shapeCast S5000x64 x0 Facts₀.shapeCasts_S5000x64_S5000x64)
        (broadcastTo S5000x64 (shapeCast S1x64 (shapeCast S1x64 x1 Facts₀.shapeCasts_S1x64_S1x64) Facts₀.shapeCasts_S1x64_S1x64) Facts₀.broadcasts_S1x64_S5000x64)
      = ((fun i => x0 i + x1 (ix2 (0 : Fin 1) (i 1))) : FVec Ideal S5000x64 .f32) := by
    funext i
    obtain ⟨a, b, rfl⟩ : ∃ (a : Fin 5000) (b : Fin 64), i = ix2 a b := ⟨i 0, i 1, eq_ix2 i⟩
    rw [addf_apply, shapeCast_self, shapeCast_self, shapeCast_self, broadcastTo_1b_ab_apply]
  unfold k3_pay1
  dsimp only
  rw [hz]
  exact softmaxBody_apply _ _ _ _ _ _ _ p q

/-- A row's result from a block: if the block's row p plus the bias row is row r of the array z, entry by entry, the
    body's output at (p, q) is the log-softmax of z at (r, q): maximum and sum run over the same 64 entries. -/
theorem row_eq (x0 : Vec Ideal S5000x64 .f32) (x1 : Vec Ideal S1x64 .f32) (z : FVec Ideal N50000x64 .f32)
    (p : Fin 5000) (q : Fin 64) (r : Fin 50000)
    (hzk : ∀ k : Fin 64, x0 (ix2 p k) + x1 (ix2 (0 : Fin 1) k) = z (rowAt64 r k)) :
    k3_pay1 x1 x0 (ix2 p q) = logSoftmaxRows z (rowAt64 r q) := by
  rw [pay_apply]
  have hM : blockMax (fun i => x0 i + x1 (ix2 (0 : Fin 1) (i 1))) p = rowMax z r := by
    unfold blockMax rowMax
    exact congrArg (fun f => (Finset.univ : Finset (Fin 64)).fold max (Ideal.ofBits .f32 0xFF800000#32) f) (funext fun k => hzk k)
  rw [hM, hzk q]
  show _ = (z (rowAt64 r q) - rowMax z r) - Ideal.log (∑ k : Fin 64, Ideal.exp (z (rowAt64 r k) - rowMax z r))
  refine congrArg (fun y => (z (rowAt64 r q) - rowMax z r) - Ideal.log y) (Finset.sum_congr rfl fun k _ => ?_)
  rw [hzk k]

-- The TensorCore's buffers as the region finds them: any contents at all.
variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The printed index maps over the grid: point t's row block is block t of the input and of the output, in the one
    block column; the bias row's window never moves. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point t's input block at (p, k) is the array's entry (5000·t + p, k). -/
theorem rows_apply (c : Dev nD) (t : Fin cfg3.N) (p : Fin 5000) (k : Fin 64) (r : Fin 50000) (hr : r.val = 5000 * t.val + p.val) :
    (iblk3 (F := Ideal) V c 0 t : Vec Ideal S5000x64 .f32) (ix2 p k) = (V c main_v61 : N50000x64.Idx → Ideal .f32) (rowAt64 r k) := by
  obtain ⟨e0, e1, -, -, -, -⟩ := block_indices t
  unfold iblk3
  rw [View.read_apply]
  show V c main_v61 _ = V c main_v61 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- Every point's bias block at (0, k) is the bias row's entry (0, k). -/
theorem bias_apply (c : Dev nD) (t : Fin cfg3.N) (k : Fin 64) (i : N50000x64.Idx) (hi : (i 1).val = k.val) :
    (iblk3 (F := Ideal) V c 1 t : Vec Ideal S1x64 .f32) (ix2 (0 : Fin 1) k) = (V c main_v62 : N1x64.Idx → Ideal .f32) (biasAt64 i) := by
  obtain ⟨-, -, e2, e3, -, -⟩ := block_indices t
  unfold iblk3
  rw [View.read_apply]
  show V c main_v62 _ = V c main_v62 _
  congr 1
  funext a
  apply Fin.ext
  match a with
  | ⟨0, _⟩ => show win3_1.index t (0 : Fin 2) * 1 + 1 * 0 = 0; rw [e2]
  | ⟨1, _⟩ => show win3_1.index t (1 : Fin 2) * 64 + 1 * k.val = (i 1).val; rw [e3, hi]; omega

/-- WHAT POINT t WRITES BACK is block t of the log-softmax of the biased array. -/
theorem written_back (c : Dev nD) (t : Fin cfg3.N) :
    (dat3 (F := Ideal) V c).flushed 2 t
      = ((cfg3.win 2).blk t).view.read (Elt Ideal) (logSoftmaxRows (addBias64 (V c main_v61) (V c main_v62))) := by
  show (cfg3.win 2).cut (grid3.coords t) ((dat3 (F := Ideal) V c).after 2 t) = _
  rw [after3_2]
  unfold out3_2
  rw [View.canon_unit_zero zero_offsets]
  simp only [View.ld_unit_zero (S := S5000x64) zero_offsets, View.ld_unit_zero (S := S1x64) zero_offsets]
  obtain ⟨-, -, -, -, e4, e5⟩ := block_indices t
  have hN : t.val < 10 := Nat.lt_of_lt_of_eq t.isLt N_3
  refine funext fun (j : S5000x64.Idx) => ?_
  show k3_pay1 (iblk3 (F := Ideal) V c 1 t) (iblk3 (F := Ideal) V c 0 t) j
    = logSoftmaxRows (addBias64 (V c main_v61) (V c main_v62)) (((cfg3.win 2).blk t).view.emb j)
  have hj0 : (j 0).val < 5000 := (j 0).isLt
  have hemb : ((cfg3.win 2).blk t).view.emb j = rowAt64 ⟨5000 * t.val + (j 0).val, by omega⟩ (j 1) := by
    funext a
    apply Fin.ext
    match a with
    | ⟨0, _⟩ => show win3_2.index t (0 : Fin 2) * 5000 + 1 * (j 0).val = 5000 * t.val + (j 0).val; rw [e4]; omega
    | ⟨1, _⟩ => show win3_2.index t (1 : Fin 2) * 64 + 1 * (j 1).val = (j 1).val; rw [e5]; omega
  rw [hemb]
  refine (congrArg (k3_pay1 _ _) (eq_ix2 (n0 := 5000) (n1 := 64) j)).trans ?_
  refine row_eq _ _ _ (j 0) (j 1) _ fun k => ?_
  rw [rows_apply V c t (j 0) k ⟨5000 * t.val + (j 0).val, by omega⟩ rfl,
    bias_apply V c t k (rowAt64 ⟨5000 * t.val + (j 0).val, by omega⟩ k) rfl]
  rfl

/-- An index of the array is in point t's block iff each coordinate is in the block's range on its axis. -/
theorem mem_rowBlock (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- The ten row blocks tile the 50000 rows: row r lies in the block of point r / 5000. -/
theorem rows_covered (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  let t : Fin cfg3.N := ⟨(i 0).val / 5000, Nat.lt_of_lt_of_eq (show (i 0).val / 5000 < 10 by omega) N_3.symm⟩
  obtain ⟨-, -, -, -, e4, e5⟩ := block_indices t
  have ht : t.val = (i 0).val / 5000 := rfl
  refine ⟨t, flush3_2 t, ?_⟩
  rw [mem_rowBlock]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- After region 3 its output array is the row-wise log-softmax of a + b, entry by entry. -/
theorem final (c : Dev nD) :
    (dat3 (F := Ideal) V c).arrAt 2 cfg3.N = logSoftmaxRows (addBias64 (V c main_v61) (V c main_v62)) :=
  (dat3 (F := Ideal) V c).arrAt_eq_of_cover 2 (logSoftmaxRows (addBias64 (V c main_v61) (V c main_v62)))
    (fun t _ => written_back V c t) rows_covered

end Cert.KernelIdeal.LogSoftmax

end
-- ==== Proof.KValue.lean ====
/-
  What the idealized kernel program leaves in its result array, as the reference's own function of the arguments.

  @main is a chain: host operations that build the edge lists and the normalisation from the integer argument,
  then  product → gather/scale/scatter-add → bias and ramp → product → gather/scale/scatter-add → bias and
  log-softmax, the four dense stages being kernel regions and everything else host operations. The host
  operations are, line for line, the ones the reference runs; each region leaves the whole-array function of the
  specification in its output array, and the reference's matching host operations are the same functions. So,
  walking the chain from the launch memory to the last region, every intermediate array is the reference's stage
  of the same arguments, and so is the result.

  Two kinds of step. A REGION rewrites its own three arrays and nothing else: its output array becomes the
  specification's function of its two input arrays as the region found them, every other buffer is kept. A HOST
  STRETCH is read from ANY contents `W` of the buffers before it: the buffer it computes holds the reference's
  stage as soon as the buffers it reads hold the reference's stages, and a buffer it does not write is kept. The
  one place where the two programs spell a value differently is the bias row: the kernel reshapes the bias vector
  to one row where the reference broadcasts it into one row; both rows read the vector at the column.
-/
import proofs.«119653_j4990751998611_1_alg».proof.Proof.Gen.KernelIdeal.Frame
import proofs.«119653_j4990751998611_1_alg».proof.Proof.RefRead
import proofs.«119653_j4990751998611_1_alg».proof.Proof.Spec
import proofs.«119653_j4990751998611_1_alg».proof.Proof.RefStages
import proofs.«119653_j4990751998611_1_alg».proof.Proof.KEntry
import proofs.«119653_j4990751998611_1_alg».proof.Proof.Dense0
import proofs.«119653_j4990751998611_1_alg».proof.Proof.Ramp
import proofs.«119653_j4990751998611_1_alg».proof.Proof.Dense2
import proofs.«119653_j4990751998611_1_alg».proof.Proof.LogSoftmax
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo
open Idealize.ShloMosaic.ValueIdx

namespace Cert.KernelIdeal.Fold

open Cert.KernelIdeal Cert.KernelIdeal.Gen Cert.GcnSpec

/-! ## The bias as one row: a reshape of the vector is the broadcast of the vector into one row -/

/-- The 128-vector reshaped to [1, 128] is the reference's broadcast of it into [1, 128]: entry (0, j) is entry j. -/
theorem biasRow128 (x3 : (⟨Cert.ReferenceIdeal.S128, .f32⟩ : BufTy).Contents (Elt Ideal)) (h : S128.ShapeCasts S1x128) :
    (fun i => shapeCast S1x128 x3 h i) = Cert.ReferenceIdeal.ReadP.val_main_v46 (F := Ideal) x3 := by
  funext i
  obtain ⟨u, q, rfl⟩ : ∃ (u : Fin 1) (q : Fin 128), i = ix2 u q := ⟨i 0, i 1, eq_ix2 i⟩
  rw [Cert.ReferenceIdeal.ReadP.val_main_v46_apply]
  exact (shapeCast_a_1a_apply x3 h u q).trans (congrArg x3 (funext fun a => by match a with | ⟨0, _⟩ => rfl))

/-- The 64-vector reshaped to [1, 64] is the reference's broadcast of it into [1, 64]: entry (0, j) is entry j. -/
theorem biasRow64 (x5 : (⟨Cert.ReferenceIdeal.S64, .f32⟩ : BufTy).Contents (Elt Ideal)) (h : S64.ShapeCasts S1x64) :
    (fun i => shapeCast S1x64 x5 h i) = Cert.ReferenceIdeal.ReadP.val_main_v64 (F := Ideal) x5 := by
  funext i
  obtain ⟨u, q, rfl⟩ : ∃ (u : Fin 1) (q : Fin 64), i = ix2 u q := ⟨i 0, i 1, eq_ix2 i⟩
  rw [Cert.ReferenceIdeal.ReadP.val_main_v64_apply]
  exact (shapeCast_a_1a_apply x5 h u q).trans (congrArg x5 (funext fun a => by match a with | ⟨0, _⟩ => rfl))

/-! ## The host stretch between the first product and the ramp, from any contents `W` -/

section Stretch1
variable (W : Valuation τ sig (Elt Ideal))

set_option maxHeartbeats 2000000 in
/-- Gather along the sources, scale by the edge factor, scatter-add at the destinations: the reference's stage,
    once the product, the two edge lists and the factors hold the reference's stages. -/
theorem aggregate1 (x0 : (⟨Cert.ReferenceIdeal.S50000x256, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal))
    (hp : W (Proc.devRef .tc main_v32) = Cert.ReferenceIdeal.ReadP.val_main_v32 (F := Ideal) x0 x2)
    (hs : W (Proc.devRef .tc main_v3) = Cert.ReferenceIdeal.ReadP.val_main_v3 (F := Ideal) x1)
    (hd : W (Proc.devRef .tc main_v6) = Cert.ReferenceIdeal.ReadP.val_main_v6 (F := Ideal) x1)
    (hn : W (Proc.devRef .tc main_v31) = Cert.ReferenceIdeal.ReadP.val_main_v31 (F := Ideal) x1) :
    StableHlo.after (hostOps1 (F := Ideal)) W (Proc.devRef .tc main_v45) = Cert.ReferenceIdeal.ReadP.val_main_v45 (F := Ideal) x0 x1 x2 := by
  after_results
  rw [hp, hs, hd, hn]
  rfl

/-- The bias vector as one row. -/
theorem biasRow1 (x3 : (⟨Cert.ReferenceIdeal.S128, .f32⟩ : BufTy).Contents (Elt Ideal)) (h3 : W (Proc.devRef .tc main_arg3) = x3) :
    StableHlo.after (hostOps1 (F := Ideal)) W (Proc.devRef .tc main_v46) = Cert.ReferenceIdeal.ReadP.val_main_v46 (F := Ideal) x3 := by
  after_results
  rw [h3]
  exact biasRow128 x3 _

/-- The stretch writes none of these. -/
theorem keep1_v3 : StableHlo.after (hostOps1 (F := Ideal)) W (Proc.devRef .tc main_v3) = W (Proc.devRef .tc main_v3) := by after_results
theorem keep1_v6 : StableHlo.after (hostOps1 (F := Ideal)) W (Proc.devRef .tc main_v6) = W (Proc.devRef .tc main_v6) := by after_results
theorem keep1_v31 : StableHlo.after (hostOps1 (F := Ideal)) W (Proc.devRef .tc main_v31) = W (Proc.devRef .tc main_v31) := by after_results
theorem keep1_arg4 : StableHlo.after (hostOps1 (F := Ideal)) W (Proc.devRef .tc main_arg4) = W (Proc.devRef .tc main_arg4) := by after_results
theorem keep1_arg5 : StableHlo.after (hostOps1 (F := Ideal)) W (Proc.devRef .tc main_arg5) = W (Proc.devRef .tc main_arg5) := by after_results

end Stretch1

/-! ## The host stretch between the second product and the log-softmax, from any contents `W` -/

section Stretch3
variable (W : Valuation τ sig (Elt Ideal))

set_option maxHeartbeats 2000000 in
/-- Gather, scale, scatter-add once more: the reference's stage, once the second product, the two edge lists and
    the factors hold the reference's stages. -/
theorem aggregate2 (x0 : (⟨Cert.ReferenceIdeal.S50000x256, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal))
    (x3 : (⟨Cert.ReferenceIdeal.S128, .f32⟩ : BufTy).Contents (Elt Ideal)) (x4 : (⟨Cert.ReferenceIdeal.S128x64, .f32⟩ : BufTy).Contents (Elt Ideal))
    (hp : W (Proc.devRef .tc main_v48) = Cert.ReferenceIdeal.ReadP.val_main_v50 (F := Ideal) x0 x1 x2 x3 x4)
    (hs : W (Proc.devRef .tc main_v3) = Cert.ReferenceIdeal.ReadP.val_main_v3 (F := Ideal) x1)
    (hd : W (Proc.devRef .tc main_v6) = Cert.ReferenceIdeal.ReadP.val_main_v6 (F := Ideal) x1)
    (hn : W (Proc.devRef .tc main_v31) = Cert.ReferenceIdeal.ReadP.val_main_v31 (F := Ideal) x1) :
    StableHlo.after (hostOps3 (F := Ideal)) W (Proc.devRef .tc main_v61) = Cert.ReferenceIdeal.ReadP.val_main_v63 (F := Ideal) x0 x1 x2 x3 x4 := by
  after_results
  rw [hp, hs, hd, hn]
  rfl

/-- The bias vector as one row. -/
theorem biasRow3 (x5 : (⟨Cert.ReferenceIdeal.S64, .f32⟩ : BufTy).Contents (Elt Ideal)) (h5 : W (Proc.devRef .tc main_arg5) = x5) :
    StableHlo.after (hostOps3 (F := Ideal)) W (Proc.devRef .tc main_v62) = Cert.ReferenceIdeal.ReadP.val_main_v64 (F := Ideal) x5 := by
  after_results
  rw [h5]
  exact biasRow64 x5 _

end Stretch3

/-! ## The chain, from the launch memory -/

variable (m : (ℓ : Loc nD τ sig) → Buf (Elt Ideal) ℓ) (ρ : Dev nD → PrngReg)

/-- The six arguments as launched on core `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-! ### After the first product (region 0) -/

theorem exit0_out (c : Dev nD) :
    W4 (F := Ideal) m ρ c (Proc.devRef .tc main_v32) = Cert.ReferenceIdeal.ReadP.val_main_v32 (F := Ideal) (a0 m c) (a2 m c) := by
  refine ((W4_arr m ρ c 2).trans (Cert.KernelIdeal.Dense0.final (V3 m ρ) c)).trans ?_
  show xw1 (W3 m ρ c (Proc.devRef .tc main_arg0)) (W3 m ρ c (Proc.devRef .tc main_arg2)) = _
  rw [Cert.KernelIdeal.Entry.arg0 m ρ c, Cert.KernelIdeal.Entry.arg2 m ρ c]
  exact (Cert.ReferenceIdeal.Stages.product1 _ _).symm
theorem exit0_v3 (c : Dev nD) : W4 (F := Ideal) m ρ c (Proc.devRef .tc main_v3) = Cert.ReferenceIdeal.ReadP.val_main_v3 (F := Ideal) (a1 m c) :=
  (W4_of_ne m ρ c main_v3 (by decide)).trans (Cert.KernelIdeal.Entry.src m ρ c)
theorem exit0_v6 (c : Dev nD) : W4 (F := Ideal) m ρ c (Proc.devRef .tc main_v6) = Cert.ReferenceIdeal.ReadP.val_main_v6 (F := Ideal) (a1 m c) :=
  (W4_of_ne m ρ c main_v6 (by decide)).trans (Cert.KernelIdeal.Entry.dst m ρ c)
theorem exit0_v31 (c : Dev nD) : W4 (F := Ideal) m ρ c (Proc.devRef .tc main_v31) = Cert.ReferenceIdeal.ReadP.val_main_v31 (F := Ideal) (a1 m c) :=
  (W4_of_ne m ρ c main_v31 (by decide)).trans (Cert.KernelIdeal.Entry.norm m ρ c)
theorem exit0_arg3 (c : Dev nD) : W4 (F := Ideal) m ρ c (Proc.devRef .tc main_arg3) = a3 m c :=
  (W4_of_ne m ρ c main_arg3 (by decide)).trans (Cert.KernelIdeal.Entry.arg3 m ρ c)
theorem exit0_arg4 (c : Dev nD) : W4 (F := Ideal) m ρ c (Proc.devRef .tc main_arg4) = a4 m c :=
  (W4_of_ne m ρ c main_arg4 (by decide)).trans (Cert.KernelIdeal.Entry.arg4 m ρ c)
theorem exit0_arg5 (c : Dev nD) : W4 (F := Ideal) m ρ c (Proc.devRef .tc main_arg5) = a5 m c :=
  (W4_of_ne m ρ c main_arg5 (by decide)).trans (Cert.KernelIdeal.Entry.arg5 m ρ c)

/-! ### After the first aggregation (the host stretch), at the ramp's entry -/

theorem entry1_agg (c : Dev nD) :
    W5 (F := Ideal) m ρ c (Proc.devRef .tc main_v45) = Cert.ReferenceIdeal.ReadP.val_main_v45 (F := Ideal) (a0 m c) (a1 m c) (a2 m c) :=
  aggregate1 (W4 m ρ c) _ _ _ (exit0_out m ρ c) (exit0_v3 m ρ c) (exit0_v6 m ρ c) (exit0_v31 m ρ c)
theorem entry1_bias (c : Dev nD) :
    W5 (F := Ideal) m ρ c (Proc.devRef .tc main_v46) = Cert.ReferenceIdeal.ReadP.val_main_v46 (F := Ideal) (a3 m c) :=
  biasRow1 (W4 m ρ c) _ (exit0_arg3 m ρ c)
theorem entry1_v3 (c : Dev nD) : W5 (F := Ideal) m ρ c (Proc.devRef .tc main_v3) = Cert.ReferenceIdeal.ReadP.val_main_v3 (F := Ideal) (a1 m c) :=
  (keep1_v3 (W4 m ρ c)).trans (exit0_v3 m ρ c)
theorem entry1_v6 (c : Dev nD) : W5 (F := Ideal) m ρ c (Proc.devRef .tc main_v6) = Cert.ReferenceIdeal.ReadP.val_main_v6 (F := Ideal) (a1 m c) :=
  (keep1_v6 (W4 m ρ c)).trans (exit0_v6 m ρ c)
theorem entry1_v31 (c : Dev nD) : W5 (F := Ideal) m ρ c (Proc.devRef .tc main_v31) = Cert.ReferenceIdeal.ReadP.val_main_v31 (F := Ideal) (a1 m c) :=
  (keep1_v31 (W4 m ρ c)).trans (exit0_v31 m ρ c)
theorem entry1_arg4 (c : Dev nD) : W5 (F := Ideal) m ρ c (Proc.devRef .tc main_arg4) = a4 m c :=
  (keep1_arg4 (W4 m ρ c)).trans (exit0_arg4 m ρ c)
theorem entry1_arg5 (c : Dev nD) : W5 (F := Ideal) m ρ c (Proc.devRef .tc main_arg5) = a5 m c :=
  (keep1_arg5 (W4 m ρ c)).trans (exit0_arg5 m ρ c)

/-! ### After the ramp (region 1) -/

theorem exit1_out (c : Dev nD) :
    W6 (F := Ideal) m ρ c (Proc.devRef .tc main_v47) = Cert.ReferenceIdeal.ReadP.val_main_v49 (F := Ideal) (a0 m c) (a1 m c) (a2 m c) (a3 m c) := by
  refine ((W6_arr m ρ c 2).trans (Cert.KernelIdeal.Ramp.final (V5 m ρ) c)).trans ?_
  show biasRamp (W5 m ρ c (Proc.devRef .tc main_v45)) (W5 m ρ c (Proc.devRef .tc main_v46)) = _
  rw [entry1_agg m ρ c, entry1_bias m ρ c]
  exact (Cert.ReferenceIdeal.Stages.ramp _ _ _ _).symm
theorem exit1_v3 (c : Dev nD) : W6 (F := Ideal) m ρ c (Proc.devRef .tc main_v3) = Cert.ReferenceIdeal.ReadP.val_main_v3 (F := Ideal) (a1 m c) :=
  (W6_of_ne m ρ c main_v3 (by decide)).trans (entry1_v3 m ρ c)
theorem exit1_v6 (c : Dev nD) : W6 (F := Ideal) m ρ c (Proc.devRef .tc main_v6) = Cert.ReferenceIdeal.ReadP.val_main_v6 (F := Ideal) (a1 m c) :=
  (W6_of_ne m ρ c main_v6 (by decide)).trans (entry1_v6 m ρ c)
theorem exit1_v31 (c : Dev nD) : W6 (F := Ideal) m ρ c (Proc.devRef .tc main_v31) = Cert.ReferenceIdeal.ReadP.val_main_v31 (F := Ideal) (a1 m c) :=
  (W6_of_ne m ρ c main_v31 (by decide)).trans (entry1_v31 m ρ c)
theorem exit1_arg4 (c : Dev nD) : W6 (F := Ideal) m ρ c (Proc.devRef .tc main_arg4) = a4 m c :=
  (W6_of_ne m ρ c main_arg4 (by decide)).trans (entry1_arg4 m ρ c)
theorem exit1_arg5 (c : Dev nD) : W6 (F := Ideal) m ρ c (Proc.devRef .tc main_arg5) = a5 m c :=
  (W6_of_ne m ρ c main_arg5 (by decide)).trans (entry1_arg5 m ρ c)

/-! ### After the second product (region 2) -/

theorem exit2_out (c : Dev nD) :
    W7 (F := Ideal) m ρ c (Proc.devRef .tc main_v48)
      = Cert.ReferenceIdeal.ReadP.val_main_v50 (F := Ideal) (a0 m c) (a1 m c) (a2 m c) (a3 m c) (a4 m c) := by
  refine ((W7_arr m ρ c 2).trans (Cert.KernelIdeal.Dense2.final (V6 m ρ) c)).trans ?_
  show xw2 (W6 m ρ c (Proc.devRef .tc main_v47)) (W6 m ρ c (Proc.devRef .tc main_arg4)) = _
  rw [exit1_out m ρ c, exit1_arg4 m ρ c]
  exact (Cert.ReferenceIdeal.Stages.product2 _ _ _ _ _).symm
theorem exit2_v3 (c : Dev nD) : W7 (F := Ideal) m ρ c (Proc.devRef .tc main_v3) = Cert.ReferenceIdeal.ReadP.val_main_v3 (F := Ideal) (a1 m c) :=
  (W7_of_ne m ρ c main_v3 (by decide)).trans (exit1_v3 m ρ c)
theorem exit2_v6 (c : Dev nD) : W7 (F := Ideal) m ρ c (Proc.devRef .tc main_v6) = Cert.ReferenceIdeal.ReadP.val_main_v6 (F := Ideal) (a1 m c) :=
  (W7_of_ne m ρ c main_v6 (by decide)).trans (exit1_v6 m ρ c)
theorem exit2_v31 (c : Dev nD) : W7 (F := Ideal) m ρ c (Proc.devRef .tc main_v31) = Cert.ReferenceIdeal.ReadP.val_main_v31 (F := Ideal) (a1 m c) :=
  (W7_of_ne m ρ c main_v31 (by decide)).trans (exit1_v31 m ρ c)
theorem exit2_arg5 (c : Dev nD) : W7 (F := Ideal) m ρ c (Proc.devRef .tc main_arg5) = a5 m c :=
  (W7_of_ne m ρ c main_arg5 (by decide)).trans (exit1_arg5 m ρ c)

/-! ### After the second aggregation (the host stretch), at the log-softmax's entry -/

theorem entry3_agg (c : Dev nD) :
    W8 (F := Ideal) m ρ c (Proc.devRef .tc main_v61)
      = Cert.ReferenceIdeal.ReadP.val_main_v63 (F := Ideal) (a0 m c) (a1 m c) (a2 m c) (a3 m c) (a4 m c) :=
  aggregate2 (W7 m ρ c) _ _ _ _ _ (exit2_out m ρ c) (exit2_v3 m ρ c) (exit2_v6 m ρ c) (exit2_v31 m ρ c)
theorem entry3_bias (c : Dev nD) :
    W8 (F := Ideal) m ρ c (Proc.devRef .tc main_v62) = Cert.ReferenceIdeal.ReadP.val_main_v64 (F := Ideal) (a5 m c) :=
  biasRow3 (W7 m ρ c) _ (exit2_arg5 m ρ c)

/-! ### After the log-softmax (region 3): the result -/

/-- The result array after the last region is the reference's last stage of the six arguments. -/
theorem result_eq (c : Dev nD) :
    W9 (F := Ideal) m ρ c (Proc.devRef .tc main_v63)
      = Cert.ReferenceIdeal.ReadP.val_main_v67 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((W9_arr m ρ c 2).trans (Cert.KernelIdeal.LogSoftmax.final (V8 m ρ) c)).trans ?_
  show logSoftmaxRows (addBias64 (W8 m ρ c (Proc.devRef .tc main_v61)) (W8 m ρ c (Proc.devRef .tc main_v62))) = _
  rw [entry3_agg m ρ c, entry3_bias m ρ c]
  exact (Cert.ReferenceIdeal.Stages.logsoftmax _ _ _ _ _ _).symm

end Cert.KernelIdeal.Fold

end
-- ==== Proof.lean ====
/-
  The kernel computes a two-layer graph convolution with a row-wise log-softmax,
      out = logsoftmax_rows( Â · relu( Â · (x·W₁) + b₁ ) · W₂ + b₂ ),
  where Â· gathers along an edge's source, scales by the symmetric degree normalisation and scatter-adds at the
  edge's destination. Both programs run the SAME host operations for Â· and for the normalisation; they differ
  only in the dense stages, which the kernel runs as four pipelined regions of ten blocks of 5000 rows each and
  the reference as whole-array host operations. At the extended reals a change of float format is the identity
  and a matrix product is the plain sum over the contracted axis, so each region leaves exactly the reference's
  whole-array function in its output array (rows are independent: a product's entry, a ramp's entry, and a row's
  maximum and sum of exponentials see one row only, and a row lies inside one block). No step moves a factor
  across a sum or cancels, so finiteness of the inputs is never used.

  The two kernel frames are the generated ones; the reference's frame is its run, read stage by stage (Proof/RefRunStaged.lean), with the result dropped; the
  idealization rewrote nothing, so `preserves` is `True`; `algebraic` puts the kernel's run, whose result array is
  named by walking @main's chain (Proof/KValue.lean over Proof/Dense0, Ramp, Dense2, LogSoftmax), beside the
  reference's run at the same function of the arguments.
-/
import proofs.«119653_j4990751998611_1_alg».proof.Defs
import proofs.«119653_j4990751998611_1_alg».proof.Proof.Gen.Kernel
import proofs.«119653_j4990751998611_1_alg».proof.Proof.Gen.Kernel.Skeleton
import proofs.«119653_j4990751998611_1_alg».proof.Proof.Gen.Kernel.Launch
import proofs.«119653_j4990751998611_1_alg».proof.Proof.Gen.Kernel.Points
import proofs.«119653_j4990751998611_1_alg».proof.Proof.Gen.Kernel.Frame
import proofs.«119653_j4990751998611_1_alg».proof.Proof.Gen.KernelIdeal
import proofs.«119653_j4990751998611_1_alg».proof.Proof.Gen.KernelIdeal.Skeleton
import proofs.«119653_j4990751998611_1_alg».proof.Proof.Gen.KernelIdeal.Launch
import proofs.«119653_j4990751998611_1_alg».proof.Proof.Gen.KernelIdeal.Points
import proofs.«119653_j4990751998611_1_alg».proof.Proof.Gen.KernelIdeal.Frame
import proofs.«119653_j4990751998611_1_alg».proof.Proof.Gen.ReferenceIdeal
import proofs.«119653_j4990751998611_1_alg».proof.Proof.Gen.Pre_finite_inputs
import proofs.«119653_j4990751998611_1_alg».proof.Proof.RefRun
import proofs.«119653_j4990751998611_1_alg».proof.Proof.RefRead
import proofs.«119653_j4990751998611_1_alg».proof.Proof.RefRunStaged
import proofs.«119653_j4990751998611_1_alg».proof.Proof.KRun
import proofs.«119653_j4990751998611_1_alg».proof.Proof.KValue
import Idealize.ShloMosaic.Adequacy
import Idealize.ShloMosaic.Init

noncomputable section

namespace Cert.Proof

open Idealize.ShloMosaic Idealize.SL.Sem

/-- The word-level kernel runs and leaves its arguments as launched: the generated frame. -/
theorem frame_k : Cert.frame_Kernel := fun m ρ _ => Cert.Kernel.Gen.frame m ρ

/-- The idealized kernel runs and leaves its arguments as launched: the generated frame. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Staged.run m ρ)

/-- The two idealized programs end with equal results: the kernel's result array is the reference's last stage
    of the kernel's arguments (the chain walked in Proof/KValue.lean), the reference's is that stage of its own
    arguments, and the arguments agree. -/
theorem algebraic : Cert.algebraic_KernelIdeal_ReferenceIdeal := by
  intro m ρ m' ρ' _ hagree
  refine ⟨fun c => Cert.ReferenceIdeal.ReadP.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Staged.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
